-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x9 : Shape := ⟨2, ![4194304, 9]⟩
abbrev S_ : Shape := ⟨0, ![]⟩

class Facts : Prop where
  bcast_S_S4194304x9 : S_.BroadcastsInDim S4194304x9 (![] : Fin 0 → Fin S4194304x9.rank)
  reducesTo_S4194304x9_S_d0_1 : S4194304x9.ReducesTo [0, 1] S_
  h_S_ : 0 < S_.numel

variable [Facts]

def fn {F : FTy → Type} [FloatOps F] (main_arg0 : FVec F S4194304x9 .f32) : IVec S_ 1 :=
  let main_v0 : FVec F S4194304x9 .f32 := Host.absf main_arg0
  let main_cst : FVec F S_ .f32 := constant S_ .f32 0x7F800000#32
  let main_v1 : FVec F S4194304x9 .f32 := broadcastInDim S4194304x9 ![] bcast_S_S4194304x9 main_cst
  let main_v2 : IVec S4194304x9 1 := cmpf .olt main_v0 main_v1
  let main_c : IVec S_ 1 := constantI S_ 1 1#1
  let main_v3 : IVec S_ 1 := (fun x v => Host.reduce IntOp.andi x v reducesTo_S4194304x9_S_d0_1 h_S_) main_v2 main_c
  main_v3
-- ==== Kernel.lean ====
abbrev S4194304x9 : Shape := ⟨2, ![4194304, 9]⟩
abbrev S4194304x3 : Shape := ⟨2, ![4194304, 3]⟩
abbrev S4096x9 : Shape := ⟨2, ![4096, 9]⟩
abbrev S4096x3 : Shape := ⟨2, ![4096, 3]⟩
abbrev S4096x2 : Shape := ⟨2, ![4096, 2]⟩
abbrev S4096x1 : Shape := ⟨2, ![4096, 1]⟩
abbrev S4096 : Shape := ⟨1, ![4096]⟩
abbrev S4194304x1x3 : Shape := ⟨3, ![4194304, 1, 3]⟩

abbrev nBuf : Space → Nat
  | .hbm => 3
  | .vmem => 4
  | .smem => 0
  | _ => 0

abbrev bufTy : (tb : Table) → Fin (tcTables nBuf tb) → BufTy
  | .hbm, ⟨0, _⟩ => ⟨S4194304x9, .f32⟩
  | .hbm, ⟨1, _⟩ => ⟨S4194304x3, .f32⟩
  | .hbm, ⟨2, _⟩ => ⟨S4194304x1x3, .f32⟩
  | .local _ .vmem, ⟨0, _⟩ => ⟨S4096x9, .f32⟩
  | .local _ .vmem, ⟨1, _⟩ => ⟨S4096x9, .f32⟩
  | .local _ .vmem, ⟨2, _⟩ => ⟨S4096x3, .f32⟩
  | .local _ .vmem, ⟨3, _⟩ => ⟨S4096x3, .f32⟩
  | _, _ => ⟨S4194304x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4096x9_S4096x9_0_0 : ∀ a, (![0, 0] : Fin 2 → Nat) a + S4096x9.size a ≤ S4096x9.size a
  h_S4096x9 : 0 < S4096x9.numel
  slices_S4096x9_o0_0_S4096x2 : S4096x9.Slices ![0, 0] S4096x2
  slices_S4096x9_o0_2_S4096x2 : S4096x9.Slices ![0, 2] S4096x2
  slices_S4096x9_o0_4_S4096x2 : S4096x9.Slices ![0, 4] S4096x2
  slices_S4096x9_o0_6_S4096x2 : S4096x9.Slices ![0, 6] S4096x2
  slices_S4096x9_o0_8_S4096x1 : S4096x9.Slices ![0, 8] S4096x1
  reduces_S4096x2_S4096 : S4096x2.Reduces [1] S4096
  shapeCasts_S4096_S4096x1 : S4096.ShapeCasts S4096x1
  broadcasts_S4096x1_S4096x2 : S4096x1.Broadcasts S4096x2
  slices_S4096x2_o0_0_S4096x1 : S4096x2.Slices ![0, 0] S4096x1
  slices_S4096x2_o0_1_S4096x1 : S4096x2.Slices ![0, 1] S4096x1
  inb_S4096x3_S4096x1_0_0 : ∀ a, (![0, 0] : Fin 2 → Nat) a + S4096x1.size a ≤ S4096x3.size a
  h_S4096x1 : 0 < S4096x1.numel
  inb_S4096x3_S4096x1_0_1 : ∀ a, (![0, 1] : Fin 2 → Nat) a + S4096x1.size a ≤ S4096x3.size a
  inb_S4096x3_S4096x1_0_2 : ∀ a, (![0, 2] : Fin 2 → Nat) a + S4096x1.size a ≤ S4096x3.size a
  shapeCasts_S4194304x3_S4194304x1x3 : S4194304x3.ShapeCasts S4194304x1x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x9.size a ≤ S4194304x9.size a
  hwx0_0 : ∀ i : grid0.Coords, EltTy.bits .f32 = 32 ∨ (Rect.block (s := S4194304x9) S4096x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S4194304x3.size a
  hwx0_1 : ∀ i : grid0.Coords, EltTy.bits .f32 = 32 ∨ (Rect.block (s := S4194304x3) S4096x3.size (cc0_transform_1 i) (hinb0_1 i)).WholeWords (EltTy.packing .f32)

variable [Facts₀]

abbrev win0_0 : Pipeline.Window sig grid0 :=
  Pipeline.Window.ofSpec (Memref.whole main_arg0) S4096x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x9 : Shape := ⟨2, ![4194304, 9]⟩
abbrev S4194304x4 : Shape := ⟨2, ![4194304, 4]⟩
abbrev S4194304x2 : Shape := ⟨2, ![4194304, 2]⟩
abbrev S_ : Shape := ⟨0, ![]⟩
abbrev S4194304 : Shape := ⟨1, ![4194304]⟩
abbrev S4194304x1 : Shape := ⟨2, ![4194304, 1]⟩
abbrev S4194304x2x1 : Shape := ⟨3, ![4194304, 2, 1]⟩
abbrev S4194304x2x2 : Shape := ⟨3, ![4194304, 2, 2]⟩
abbrev S3x3 : Shape := ⟨2, ![3, 3]⟩
abbrev S4194304x3x3 : Shape := ⟨3, ![4194304, 3, 3]⟩
abbrev S1 : Shape := ⟨1, ![1]⟩
abbrev S2 : Shape := ⟨1, ![2]⟩
abbrev S4194304x3x1 : Shape := ⟨3, ![4194304, 3, 1]⟩
abbrev S4194304x1x3 : Shape := ⟨3, ![4194304, 1, 3]⟩

abbrev nBuf : Space → Nat
  | .hbm => 100
  | .vmem => 0
  | .smem => 0
  | _ => 0

abbrev bufTy : (tb : Table) → Fin (tcTables nBuf tb) → BufTy
  | .hbm, ⟨0, _⟩ => ⟨S4194304x9, .f32⟩
  | .hbm, ⟨1, _⟩ => ⟨S4194304x4, .f32⟩
  | .hbm, ⟨2, _⟩ => ⟨S4194304x2, .f32⟩
  | .hbm, ⟨3, _⟩ => ⟨S4194304x2, .f32⟩
  | .hbm, ⟨4, _⟩ => ⟨S4194304x2, .f32⟩
  | .hbm, ⟨5, _⟩ => ⟨S_, .f32⟩
  | .hbm, ⟨6, _⟩ => ⟨S4194304, .f32⟩
  | .hbm, ⟨7, _⟩ => ⟨S4194304x1, .f32⟩
  | .hbm, ⟨8, _⟩ => ⟨S4194304x1, .f32⟩
  | .hbm, ⟨9, _⟩ => ⟨S_, .f32⟩
  | .hbm, ⟨10, _⟩ => ⟨S4194304x1, .f32⟩
  | .hbm, ⟨11, _⟩ => ⟨S4194304x1, .f32⟩
  | .hbm, ⟨12, _⟩ => ⟨S4194304x2, .f32⟩
  | .hbm, ⟨13, _⟩ => ⟨S4194304x2, .f32⟩
  | .hbm, ⟨14, _⟩ => ⟨S4194304x2, .f32⟩
  | .hbm, ⟨15, _⟩ => ⟨S_, .f32⟩
  | .hbm, ⟨16, _⟩ => ⟨S4194304, .f32⟩
  | .hbm, ⟨17, _⟩ => ⟨S4194304x1, .f32⟩
  | .hbm, ⟨18, _⟩ => ⟨S4194304x2, .f32⟩
  | .hbm, ⟨19, _⟩ => ⟨S4194304x2, .f32⟩
  | .hbm, ⟨20, _⟩ => ⟨S4194304x2, .f32⟩
  | .hbm, ⟨21, _⟩ => ⟨S4194304x2, .f32⟩
  | .hbm, ⟨22, _⟩ => ⟨S_, .f32⟩
  | .hbm, ⟨23, _⟩ => ⟨S4194304, .f32⟩
  | .hbm, ⟨24, _⟩ => ⟨S4194304x1, .f32⟩
  | .hbm, ⟨25, _⟩ => ⟨S4194304x1, .f32⟩
  | .hbm, ⟨26, _⟩ => ⟨S_, .f32⟩
  | .hbm, ⟨27, _⟩ => ⟨S4194304x1, .f32⟩
  | .hbm, ⟨28, _⟩ => ⟨S4194304x1, .f32⟩
  | .hbm, ⟨29, _⟩ => ⟨S4194304x2, .f32⟩
  | .hbm, ⟨30, _⟩ => ⟨S4194304x2, .f32⟩
  | .hbm, ⟨31, _⟩ => ⟨S4194304x2x1, .f32⟩
  | .hbm, ⟨32, _⟩ => ⟨S4194304x2x1, .f32⟩
  | .hbm, ⟨33, _⟩ => ⟨S4194304x2x2, .f32⟩
  | .hbm, ⟨34, _⟩ => ⟨S4194304x4, .f32⟩
  | .hbm, ⟨35, _⟩ => ⟨S4194304x2, .f32⟩
  | .hbm, ⟨36, _⟩ => ⟨S4194304x2, .f32⟩
  | .hbm, ⟨37, _⟩ => ⟨S4194304x2, .f32⟩
  | .hbm, ⟨38, _⟩ => ⟨S_, .f32⟩
  | .hbm, ⟨39, _⟩ => ⟨S4194304, .f32⟩
  | .hbm, ⟨40, _⟩ => ⟨S4194304x1, .f32⟩
  | .hbm, ⟨41, _⟩ => ⟨S4194304x1, .f32⟩
  | .hbm, ⟨42, _⟩ => ⟨S_, .f32⟩
  | .hbm, ⟨43, _⟩ => ⟨S4194304x1, .f32⟩
  | .hbm, ⟨44, _⟩ => ⟨S4194304x1, .f32⟩
  | .hbm, ⟨45, _⟩ => ⟨S4194304x2, .f32⟩
  | .hbm, ⟨46, _⟩ => ⟨S4194304x2, .f32⟩
  | .hbm, ⟨47, _⟩ => ⟨S4194304x2, .f32⟩
  | .hbm, ⟨48, _⟩ => ⟨S_, .f32⟩
  | .hbm, ⟨49, _⟩ => ⟨S4194304, .f32⟩
  | .hbm, ⟨50, _⟩ => ⟨S4194304x1, .f32⟩
  | .hbm, ⟨51, _⟩ => ⟨S4194304x2, .f32⟩
  | .hbm, ⟨52, _⟩ => ⟨S4194304x2, .f32⟩
  | .hbm, ⟨53, _⟩ => ⟨S4194304x2, .f32⟩
  | .hbm, ⟨54, _⟩ => ⟨S4194304x2, .f32⟩
  | .hbm, ⟨55, _⟩ => ⟨S_, .f32⟩
  | .hbm, ⟨56, _⟩ => ⟨S4194304, .f32⟩
  | .hbm, ⟨57, _⟩ => ⟨S4194304x1, .f32⟩
  | .hbm, ⟨58, _⟩ => ⟨S4194304x1, .f32⟩
  | .hbm, ⟨59, _⟩ => ⟨S_, .f32⟩
  | .hbm, ⟨60, _⟩ => ⟨S4194304x1, .f32⟩
  | .hbm, ⟨61, _⟩ => ⟨S4194304x1, .f32⟩
  | .hbm, ⟨62, _⟩ => ⟨S4194304x2, .f32⟩
  | .hbm, ⟨63, _⟩ => ⟨S4194304x2, .f32⟩
  | .hbm, ⟨64, _⟩ => ⟨S4194304x2x1, .f32⟩
  | .hbm, ⟨65, _⟩ => ⟨S4194304x2x1, .f32⟩
  | .hbm, ⟨66, _⟩ => ⟨S4194304x2x2, .f32⟩
  | .hbm, ⟨67, _⟩ => ⟨S4194304x1, .f32⟩
  | .hbm, ⟨68, _⟩ => ⟨S4194304, .f32⟩
  | .hbm, ⟨69, _⟩ => ⟨S3x3, .i32⟩
  | .hbm, ⟨70, _⟩ => ⟨S3x3, .i32⟩
  | .hbm, ⟨71, _⟩ => ⟨S_, .i32⟩
  | .hbm, ⟨72, _⟩ => ⟨S3x3, .i32⟩
  | .hbm, ⟨73, _⟩ => ⟨S3x3, .i32⟩
  | .hbm, ⟨74, _⟩ => ⟨S3x3, .i1⟩
  | .hbm, ⟨75, _⟩ => ⟨S3x3, .f32⟩
  | .hbm, ⟨76, _⟩ => ⟨S4194304x3x3, .f32⟩
  | .hbm, ⟨77, _⟩ => ⟨S_, .i32⟩
  | .hbm, ⟨78, _⟩ => ⟨S1, .i32⟩
  | .hbm, ⟨79, _⟩ => ⟨S_, .i32⟩
  | .hbm, ⟨80, _⟩ => ⟨S1, .i32⟩
  | .hbm, ⟨81, _⟩ => ⟨S2, .i32⟩
  | .hbm, ⟨82, _⟩ => ⟨S4194304x3x3, .f32⟩
  | .hbm, ⟨83, _⟩ => ⟨S_, .i32⟩
  | .hbm, ⟨84, _⟩ => ⟨S1, .i32⟩
  | .hbm, ⟨85, _⟩ => ⟨S_, .i32⟩
  | .hbm, ⟨86, _⟩ => ⟨S1, .i32⟩
  | .hbm, ⟨87, _⟩ => ⟨S2, .i32⟩
  | .hbm, ⟨88, _⟩ => ⟨S4194304x3x3, .f32⟩
  | .hbm, ⟨89, _⟩ => ⟨S4194304x3x3, .f32⟩
  | .hbm, ⟨90, _⟩ => ⟨S_, .f32⟩
  | .hbm, ⟨91, _⟩ => ⟨S4194304x3x1, .f32⟩
  | .hbm, ⟨92, _⟩ => ⟨S_, .i32⟩
  | .hbm, ⟨93, _⟩ => ⟨S1, .i32⟩
  | .hbm, ⟨94, _⟩ => ⟨S_, .i32⟩
  | .hbm, ⟨95, _⟩ => ⟨S1, .i32⟩
  | .hbm, ⟨96, _⟩ => ⟨S2, .i32⟩
  | .hbm, ⟨97, _⟩ => ⟨S4194304x3x1, .f32⟩
  | .hbm, ⟨98, _⟩ => ⟨S4194304x3x1, .f32⟩
  | .hbm, ⟨99, _⟩ => ⟨S4194304x1x3, .f32⟩
  | _, _ => ⟨S4194304x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call2_v0 : Ref sig .tc := ⟨.hbm, 37, rfl⟩
abbrev main_call2_cst : Ref sig .tc := ⟨.hbm, 38, rfl⟩
abbrev main_call2_v1 : Ref sig .tc := ⟨.hbm, 39, rfl⟩
abbrev main_call2_v2 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call3_v0 : Ref sig .tc := ⟨.hbm, 54, rfl⟩
abbrev main_call3_cst : Ref sig .tc := ⟨.hbm, 55, rfl⟩
abbrev main_call3_v1 : Ref sig .tc := ⟨.hbm, 56, rfl⟩
abbrev main_call3_v2 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_5 : Ref sig .tc := ⟨.hbm, 77, rfl⟩
abbrev main_v53 : Ref sig .tc := ⟨.hbm, 78, rfl⟩
abbrev main_c_6 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_7 : Ref sig .tc := ⟨.hbm, 83, rfl⟩
abbrev main_v57 : Ref sig .tc := ⟨.hbm, 84, rfl⟩
abbrev main_c_8 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_c_10 : Ref sig .tc := ⟨.hbm, 92, rfl⟩
abbrev main_v63 : Ref sig .tc := ⟨.hbm, 93, rfl⟩
abbrev main_c_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]

class Facts₀ : Prop where
  slices_S4194304x9_S4194304x4_0_0 : S4194304x9.Slices ![0, 0] S4194304x4
  slices_S4194304x4_S4194304x2_0_0 : S4194304x4.Slices ![0, 0] S4194304x2
  slices_S4194304x4_S4194304x2_0_2 : S4194304x4.Slices ![0, 2] S4194304x2
  reducesTo_S4194304x2_S4194304_d1 : S4194304x2.ReducesTo [1] S4194304
  h_S_ : 0 < S_.numel
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S4194304x1_S4194304x2_0_1 : S4194304x1.BroadcastsInDim S4194304x2 (![0, 1] : Fin 2 → Fin S4194304x2.rank)
  bcast_S4194304x2_S4194304x2x1_0_1 : S4194304x2.BroadcastsInDim S4194304x2x1 (![0, 1] : Fin 2 → Fin S4194304x2x1.rank)
  concatenates_S4194304x2x1_S4194304x2x1_S4194304x2x2_d2 : Shape.Concatenates [S4194304x2x1, S4194304x2x1] S4194304x2x2 2
  slices_S4194304x9_S4194304x4_0_4 : S4194304x9.Slices ![0, 4] S4194304x4
  slices_S4194304x9_S4194304x1_0_8 : S4194304x9.Slices ![0, 8] S4194304x1
  shapeCasts_S4194304x1_S4194304 : S4194304x1.ShapeCasts S4194304
  bcast_S_S3x3 : S_.BroadcastsInDim S3x3 (![] : Fin 0 → Fin S3x3.rank)
  bcast_S3x3_S4194304x3x3_1_2 : S3x3.BroadcastsInDim S4194304x3x3 (![1, 2] : Fin 2 → Fin S4194304x3x3.rank)
  bcast_S_S1 : S_.BroadcastsInDim S1 (![] : Fin 0 → Fin S1.rank)
  concatenates_S1_S1_S2_d0 : Shape.Concatenates [S1, S1] S2 0
  bcast_S_S4194304x3x1 : S_.BroadcastsInDim S4194304x3x1 (![] : Fin 0 → Fin S4194304x3x1.rank)
  shapeCasts_S4194304x3x1_S4194304x1x3 : S4194304x3x1.ShapeCasts S4194304x1x3
  scatter_S4194304x3x3_S2_S4194304x2x2_012_n_12_0_wf : ScatterDims.WF S4194304x3x3 S2 S4194304x2x2 [0, 1, 2] [] [1, 2] 0
  dot_S4194304x3x3_S4194304x3x3_S4194304x3x3_2_1_1_2_0_0_wf : DotDims.WF S4194304x3x3 S4194304x3x3 S4194304x3x3 [2] [1] [1] [2] [0] [0]
  scatter_S4194304x3x1_S2_S4194304_0_12_12_0_wf : ScatterDims.WF S4194304x3x1 S2 S4194304 [0] [1, 2] [1, 2] 0
  dot_S4194304x3x3_S4194304x3x1_S4194304x3x1_2_1_1_2_0_0_wf : DotDims.WF S4194304x3x3 S4194304x3x1 S4194304x3x1 [2] [1] [1] [2] [0] [0]

variable [Facts₀]

def scatter_S4194304x3x3_S2_S4194304x2x2_012_n_12_0 : ScatterDims S4194304x3x3 S2 S4194304x2x2 where
  updateWindowDims := [0, 1, 2]
  insertedWindowDims := []
  scatterDimsToOperandDims := [1, 2]
  indexVectorDim := 0
  wf := scatter_S4194304x3x3_S2_S4194304x2x2_012_n_12_0_wf
def dot_S4194304x3x3_S4194304x3x3_S4194304x3x3_2_1_1_2_0_0 : DotDims S4194304x3x3 S4194304x3x3 S4194304x3x3 where
  lhsContracting := [2]
  rhsContracting := [1]
  lhsNonContracting := [1]
  rhsNonContracting := [2]
  lhsBatch := [0]
  rhsBatch := [0]
  wf := dot_S4194304x3x3_S4194304x3x3_S4194304x3x3_2_1_1_2_0_0_wf
def scatter_S4194304x3x1_S2_S4194304_0_12_12_0 : ScatterDims S4194304x3x1 S2 S4194304 where
  updateWindowDims := [0]
  insertedWindowDims := [1, 2]
  scatterDimsToOperandDims := [1, 2]
  indexVectorDim := 0
  wf := scatter_S4194304x3x1_S2_S4194304_0_12_12_0_wf
def dot_S4194304x3x3_S4194304x3x1_S4194304x3x1_2_1_1_2_0_0 : DotDims S4194304x3x3 S4194304x3x1 S4194304x3x1 where
  lhsContracting := [2]
  rhsContracting := [1]
  lhsNonContracting := [1]
  rhsNonContracting := [2]
  lhsBatch := [0]
  rhsBatch := [0]
  wf := dot_S4194304x3x3_S4194304x3x1_S4194304x3x1_2_1_1_2_0_0_wf

class Facts : Prop extends Facts₀ where

variable [Facts]
-- ==== Proof.RowSpec.lean ====
/-
  Row-level mathematics of the translation-from-angles block, over the extended reals.

  A row carries nine numbers.  Entries 0..3 give a 2-vector `x` and a 2-vector `y`; Gram–Schmidt turns them into an
  orthonormal pair (normalise `x` by its length clipped below at `ε`, remove from `y` its component along the
  normalised `x`, normalise the rest the same way).  Entries 4..7 give a second pair the same way, entry 8 a length `d`.
  The first pair fills the bottom-right 2×2 block of a 3×3 identity (`Rx`), the second pair the top-left block
  of another (`Rz`); the result is `(Rz · Rx) · (0, 0, d)ᵀ`.  Since the vector has only its last entry non-zero, only
  the last column of `Rz · Rx` matters, and that column is `(y₂₀·y₁₀, y₂₁·y₁₀, y₁₁)`: the product collapses to three
  elementwise products per row.  The collapse uses only `0·a = 0`, `1·a = a`, `a + 0 = a` and the commutative-monoid
  laws of `·`, all of which hold on the extended reals without any finiteness assumption.
-/
import Idealize.ShloMosaic.PureOps.Ideal
import Idealize.ShloMosaic.PureOps.Ideal.Laws
import Idealize.ShloMosaic.Lib.ValueIdx

noncomputable section

namespace Cert.RowSpec

open Idealize.ShloMosaic

/-- The clip `ε` under a length: the f32 nearest to `1e-12`, the same word in both programs. -/
def eps : EReal := Ideal.ofBits .f32 0x2B8CBCCC#32

/-- Euclidean length of a 2-vector, clipped below at `ε`. -/
def clippedNorm (v : Fin 2 → EReal) : EReal := max (Ideal.sqrt (∑ k : Fin 2, v k * v k)) eps

/-- The vector divided by its clipped length. -/
def normalize (v : Fin 2 → EReal) (j : Fin 2) : EReal := Ideal.div (v j) (clippedNorm v)

/-- Inner product of two 2-vectors. -/
def inner2 (u v : Fin 2 → EReal) : EReal := ∑ k : Fin 2, u k * v k

/-- `y` less its component along the normalised `x`. -/
def reject (x y : Fin 2 → EReal) (j : Fin 2) : EReal := y j - normalize x j * inner2 (normalize x) y

/-- Second vector of the Gram–Schmidt pair. -/
def gsSecond (x y : Fin 2 → EReal) (j : Fin 2) : EReal := normalize (reject x y) j

/-- Two consecutive entries of a row, starting at `o`. -/
def pair (r : Fin 9 → EReal) (o : Nat) (h : o + 2 ≤ 9) : Fin 2 → EReal := fun k => r ⟨o + k.val, by have := k.isLt; omega⟩

/-- First pair: normalised `x₁` and the orthonormal `y₁`. -/
def x1 (r : Fin 9 → EReal) : Fin 2 → EReal := normalize (pair r 0 (by omega))
def y1 (r : Fin 9 → EReal) : Fin 2 → EReal := gsSecond (pair r 0 (by omega)) (pair r 2 (by omega))
/-- Second pair. -/
def x2 (r : Fin 9 → EReal) : Fin 2 → EReal := normalize (pair r 4 (by omega))
def y2 (r : Fin 9 → EReal) : Fin 2 → EReal := gsSecond (pair r 4 (by omega)) (pair r 6 (by omega))
/-- The translation length. -/
def len (r : Fin 9 → EReal) : EReal := r 8

/-- The 3×3 identity's entry. -/
def eye (i j : Fin 3) : EReal := if i = j then 1 else 0

/-- The identity with its top-left 2×2 block replaced by the columns `x, y` (a rotation about the third axis). -/
def topLeft (x y : Fin 2 → EReal) (i j : Fin 3) : EReal :=
  if h : i.val < 2 ∧ j.val < 2 then (if j.val = 0 then x ⟨i.val, h.1⟩ else y ⟨i.val, h.1⟩) else eye i j

/-- The identity with its bottom-right 2×2 block replaced by the columns `x, y` (a rotation about the first axis). -/
def bottomRight (x y : Fin 2 → EReal) (i j : Fin 3) : EReal :=
  if h : 1 ≤ i.val ∧ 1 ≤ j.val then
    (if j.val = 1 then x ⟨i.val - 1, by have := i.isLt; omega⟩ else y ⟨i.val - 1, by have := i.isLt; omega⟩)
  else eye i j

/-- The column vector `(0, 0, d)`. -/
def lastAxis (d : EReal) (c : Fin 3) : EReal := if c.val = 2 then d else 0

/-- The composed form `(Rz · Rx) · (0, 0, d)ᵀ`, entry `k`, for `Rz = topLeft xz yz`, `Rx = bottomRight xx yx`. -/
def compose (xx yx xz yz : Fin 2 → EReal) (d : EReal) (k : Fin 3) : EReal :=
  ∑ c : Fin 3, (∑ j : Fin 3, topLeft xz yz k j * bottomRight xx yx j c) * lastAxis d c

/-- The collapsed form: the last column of `Rz · Rx` scaled by `d`, as three products. -/
def collapse (yx yz : Fin 2 → EReal) (d : EReal) (k : Fin 3) : EReal :=
  match k with
  | ⟨0, _⟩ => d * yz 0 * yx 0
  | ⟨1, _⟩ => d * yz 1 * yx 0
  | ⟨2, _⟩ => d * yx 1
  | ⟨_ + 3, h⟩ => absurd h (by omega)

/-- The composed form is the collapsed one: only the last column of the product meets a non-zero entry of the vector,
    and in that column every other summand carries a factor `0` from one of the two identities. -/
theorem compose_eq_collapse (xx yx xz yz : Fin 2 → EReal) (d : EReal) (k : Fin 3) :
    compose xx yx xz yz d k = collapse yx yz d k := by
  unfold compose
  simp only [Fin.sum_univ_three]
  match k with
  | ⟨0, _⟩ =>
    -- row 0 of Rz is (xz 0, yz 0, 0); column 2 of Rx is (0, yx 0, yx 1)
    simp [topLeft, bottomRight, lastAxis, eye, collapse]
    exact (mul_comm _ _).trans (mul_assoc _ _ _).symm
  | ⟨1, _⟩ =>
    -- row 1 of Rz is (xz 1, yz 1, 0)
    simp [topLeft, bottomRight, lastAxis, eye, collapse]
    exact (mul_comm _ _).trans (mul_assoc _ _ _).symm
  | ⟨2, _⟩ =>
    -- row 2 of Rz is (0, 0, 1)
    simp [topLeft, bottomRight, lastAxis, eye, collapse]
    exact mul_comm _ _

/-- What one row of the result holds, in collapsed form. -/
def collapsed (r : Fin 9 → EReal) (k : Fin 3) : EReal := collapse (y1 r) (y2 r) (len r) k

/-- What one row of the result holds, in composed form. -/
def composed (r : Fin 9 → EReal) (k : Fin 3) : EReal := compose (x1 r) (y1 r) (x2 r) (y2 r) (len r) k

theorem composed_eq_collapsed (r : Fin 9 → EReal) (k : Fin 3) : composed r k = collapsed r k :=
  compose_eq_collapse _ _ _ _ _ k

end Cert.RowSpec

end
-- ==== Proof.KernelRow.lean ====
/-
  What the kernel body leaves in its [4096, 3] output block, read at one index.

  The body reads a [4096, 9] block and works row by row.  From columns 0..3 of a row it forms the second vector of an
  orthonormal pair (normalise columns 0-1 by their length clipped below at ε, remove from columns 2-3 their component
  along that, normalise the rest); from columns 4..7 a second such vector; column 8 is a length `d`.  It stores three
  columns: `d · y₂₀ · y₁₀`, `d · y₂₁ · y₁₀` and `d · y₁₁`.  Every operation in it is either elementwise, or a layout
  operation that reads one entry of its operand (a cut of columns, a vector recast as a one-column matrix, a column
  repeated along two columns), or the sum of the two entries of a row; so at row `p` the whole computation is the
  row-level one, and at `(p, q)` the block holds entry `q` of the collapsed form of row `p`.  The three stores are
  three disjoint one-column rectangles that tile the block: entry `(p, q)` comes from the store at column `q`.
-/
import proofs.«157801_j78185584656835_1_alg».proof.Proof.Gen.KernelIdeal.Frame
import proofs.«157801_j78185584656835_1_alg».proof.Proof.RowSpec
import Idealize.ShloMosaic.Lib.ValueIdx
import Idealize.ShloMosaic.Lib.Pipeline.Value
import Idealize.ShloMosaic.PureOps.Ideal.Laws

noncomputable section

namespace Cert.KernelRow

open Idealize.ShloMosaic Idealize.ShloMosaic.ValueIdx
open Cert.KernelIdeal Cert.KernelIdeal.Gen

/-! ## Layout operations at explicit coordinates -/

section Layout
variable {α : Type}

/-- Columns `o, o+1, …` cut out of a two-axis value: row `p`, column `j` of the cut is column `o + j` of the value. -/
theorem slice_cols {n m w : Nat} (o : Nat) (v : (⟨2, ![n, m]⟩ : Shape).Idx → α)
    (h : (⟨2, ![n, m]⟩ : Shape).Slices ![0, o] ⟨2, ![n, w]⟩) (p : Fin n) (j : Fin w) (hj : o + j.val < m) :
    extractStridedSlice ⟨2, ![n, w]⟩ ![0, o] v h (ix2 p j) = v (ix2 p ⟨o + j.val, hj⟩) :=
  extractStridedSlice_apply _ _ _ _ _ fun a => match a with
    | ⟨0, _⟩ => by show p.val = 0 + p.val; omega
    | ⟨1, _⟩ => rfl

/-- The sum along the second axis of a two-column value, at row `p`, is the sum of the row's two entries. -/
theorem row_sum (v : FVec Ideal S4096x2 .f32) (h : S4096x2.Reduces [1] S4096) (hφ : FTy.f32 = FTy.f32 ∨ FTy.f32 = FTy.bf16)
    (hacc : (0x00000000#32 : BitVec 32) = 0x00000000#32) (p : Fin 4096) :
    multiReduction (F := Ideal) .add [1] S4096 v 0x00000000#32 h hφ hacc (ix1 p) = ∑ k : Fin 2, v (ix2 p k) :=
  (Ideal.multiReduction_add_single v 0x00000000#32 h hφ hacc (ix1 p)).trans
    (Finset.sum_congr rfl fun k _ => congrArg v (funext fun a => match a with
      | ⟨0, _⟩ => rfl
      | ⟨1, _⟩ => rfl))

/-- A vector of row values recast as a one-column matrix keeps row `p`'s value at `(p, 0)`. -/
theorem cast_col (v : S4096.Idx → α) (h : S4096.ShapeCasts S4096x1) (p : Fin 4096) (z : Fin 1) :
    shapeCast S4096x1 v h (ix2 p z) = v (ix1 p) :=
  shapeCast_apply v h _ _ (by
    rw [Shape.rowMajor_val_one, Shape.rowMajor_val_two]
    show p.val = p.val * 1 + z.val
    omega)

/-- A one-column matrix repeated along two columns reads its row's value in either column. -/
theorem bcast_col (v : S4096x1.Idx → α) (h : S4096x1.Broadcasts S4096x2) (p : Fin 4096) (j : Fin 2) :
    broadcastTo S4096x2 v h (ix2 p j) = v (ix2 p 0) :=
  broadcastTo_apply v h _ _ fun a => match a with
    | ⟨0, _⟩ => rfl
    | ⟨1, _⟩ => rfl

end Layout

/-- The elementwise square root at an index. -/
theorem sqrt_at {s : Shape} {φ : FTy} (v : FVec Ideal s φ) (i : s.Idx) : sqrt v i = Ideal.sqrt (v i) := rfl

/-- The row of nine numbers at row `p` of the block. -/
abbrev row (x0 : Vec Ideal S4096x9 .f32) (p : Fin 4096) : Fin 9 → EReal := fun c => x0 (ix2 p c)

/-- Two consecutive columns cut out of the block, at row `p`: the row's pair starting at column `o`. -/
theorem slice_pair (o : Nat) (ho : o + 2 ≤ 9) (x0 : Vec Ideal S4096x9 .f32) (h : S4096x9.Slices ![0, o] S4096x2)
    (p : Fin 4096) (j : Fin 2) :
    extractStridedSlice S4096x2 ![0, o] x0 h (ix2 p j) = Cert.RowSpec.pair (row x0 p) o ho j :=
  slice_cols o x0 h p j (by have := j.isLt; omega)

/-- An index passes through the elementwise operations (each acts entry by entry) and through the layout operations
    (each reads one entry of its operand), down to the next sum along a row. -/
local macro "push_idx" : tactic => `(tactic| simp only [divf_apply, subf_apply, mulf_apply, maximumf_apply, sqrt_at, broadcast_apply,
    bcast_col, cast_col, slice_pair 0 (by omega), slice_pair 2 (by omega), slice_pair 4 (by omega), slice_pair 6 (by omega)])

/-! ## The payloads at an index -/

/-- Columns 0..3 of row `p`: the second vector of the first orthonormal pair (normalise columns 0-1, remove from
    columns 2-3 their component along it, normalise the rest). -/
theorem pay7_apply (x0 : Vec Ideal S4096x9 .f32) (p : Fin 4096) (j : Fin 2) :
    k0_pay7 (F := Ideal) x0 (ix2 p j) = Cert.RowSpec.y1 (row x0 p) j := by
  unfold k0_pay7
  push_idx
  repeat (rw [row_sum]; push_idx)
  rfl

/-- Columns 4..7 of row `p`: columns 6-7 less their component along the normalised columns 4-5, before normalisation. -/
theorem pay8_apply (x0 : Vec Ideal S4096x9 .f32) (p : Fin 4096) (j : Fin 2) :
    k0_pay8 (F := Ideal) x0 (ix2 p j)
      = Cert.RowSpec.reject (Cert.RowSpec.pair (row x0 p) 4 (by omega)) (Cert.RowSpec.pair (row x0 p) 6 (by omega)) j := by
  unfold k0_pay8
  push_idx
  repeat (rw [row_sum]; push_idx)
  rfl

/-- The Euclidean length of that remainder. -/
theorem pay9_apply (x0 : Vec Ideal S4096x9 .f32) (p : Fin 4096) (z : Fin 1) :
    k0_pay9 (F := Ideal) x0 (ix2 p z)
      = Ideal.sqrt (∑ k : Fin 2,
          Cert.RowSpec.reject (Cert.RowSpec.pair (row x0 p) 4 (by omega)) (Cert.RowSpec.pair (row x0 p) 6 (by omega)) k
          * Cert.RowSpec.reject (Cert.RowSpec.pair (row x0 p) 4 (by omega)) (Cert.RowSpec.pair (row x0 p) 6 (by omega)) k) := by
  unfold k0_pay9
  push_idx
  rw [row_sum]
  simp only [mulf_apply, pay8_apply]

/-- The clip under a length, the same everywhere. -/
theorem pay10_apply (i : S4096x1.Idx) : k0_pay10 (F := Ideal) i = Cert.RowSpec.eps := rfl

/-- The remainder divided by its clipped length: the second vector of the second orthonormal pair. -/
theorem pay1_apply (x0 : Vec Ideal S4096x9 .f32) (p : Fin 4096) (j : Fin 2) :
    k0_pay1 (F := Ideal) (k0_pay8 x0) (k0_pay9 x0) k0_pay10 (ix2 p j) = Cert.RowSpec.y2 (row x0 p) j := by
  unfold k0_pay1
  simp only [divf_apply, maximumf_apply, bcast_col, pay8_apply, pay9_apply, pay10_apply]
  rfl

/-- Column 8 of row `p`: the length. -/
theorem pay6_apply (x0 : Vec Ideal S4096x9 .f32) (p : Fin 4096) (z : Fin 1) :
    k0_pay6 (F := Ideal) x0 (ix2 p z) = Cert.RowSpec.len (row x0 p) := by
  obtain rfl : z = 0 := Subsingleton.elim _ _
  unfold k0_pay6
  exact slice_cols 8 x0 _ p 0 (by decide)

/-- One column cut out of a two-column value. -/
theorem slice_one {α : Type} (o : Nat) (ho : o < 2) (v : S4096x2.Idx → α) (h : S4096x2.Slices ![0, o] S4096x1)
    (p : Fin 4096) (z : Fin 1) :
    extractStridedSlice S4096x1 ![0, o] v h (ix2 p z) = v (ix2 p ⟨o, ho⟩) := by
  obtain rfl : z = 0 := Subsingleton.elim _ _
  exact slice_cols o v h p 0 (by simpa using ho)

/-! ## The three stored columns -/

/-- Column 0 of the result: length · second pair's entry 0 · first pair's entry 0. -/
theorem pay3_apply (x0 : Vec Ideal S4096x9 .f32) (p : Fin 4096) (z : Fin 1) :
    k0_pay3 (F := Ideal) (k0_pay6 x0) (k0_pay7 x0) (k0_pay8 x0) (k0_pay9 x0) k0_pay10 (ix2 p z)
      = Cert.RowSpec.collapsed (row x0 p) ⟨0, by omega⟩ := by
  unfold k0_pay3 k0_pay2
  simp only [mulf_apply, slice_one 0 (by omega), pay6_apply, pay1_apply, pay7_apply]
  rfl

/-- Column 1 of the result: length · second pair's entry 1 · first pair's entry 0. -/
theorem pay4_apply (x0 : Vec Ideal S4096x9 .f32) (p : Fin 4096) (z : Fin 1) :
    k0_pay4 (F := Ideal) (k0_pay6 x0) (k0_pay7 x0) (k0_pay8 x0) (k0_pay9 x0) k0_pay10 (ix2 p z)
      = Cert.RowSpec.collapsed (row x0 p) ⟨1, by omega⟩ := by
  unfold k0_pay4 k0_pay2
  simp only [mulf_apply, slice_one 0 (by omega), slice_one 1 (by omega), pay6_apply, pay1_apply, pay7_apply]
  rfl

/-- Column 2 of the result: length · first pair's entry 1. -/
theorem pay5_apply (x0 : Vec Ideal S4096x9 .f32) (p : Fin 4096) (z : Fin 1) :
    k0_pay5 (F := Ideal) (k0_pay6 x0) (k0_pay7 x0) (ix2 p z) = Cert.RowSpec.collapsed (row x0 p) ⟨2, by omega⟩ := by
  unfold k0_pay5
  simp only [mulf_apply, slice_one 1 (by omega), pay6_apply, pay7_apply]
  rfl

/-! ## The block from its three column stores -/

/-- What the block holds at index `y`: the collapsed form of row `y 0`, entry `y 1`. -/
def blockSpec (x0 : Vec Ideal S4096x9 .f32) (y : S4096x3.Idx) : EReal :=
  Cert.RowSpec.collapsed (row x0 ⟨(y 0).val, idx2_lt0 y⟩) ⟨(y 1).val, idx2_lt1 y⟩

theorem blockSpec_ix2 (x0 : Vec Ideal S4096x9 .f32) (p : Fin 4096) (q : Fin 3) :
    blockSpec x0 (ix2 p q) = Cert.RowSpec.collapsed (row x0 p) q := rfl

/-- The one-column rectangle at column `c` places its row `a` at `(a, c)`. -/
theorem emb_col (c : Nat) (hc : c < 3) (inb : ∀ a, (![0, c] : Fin 2 → Nat) a + S4096x1.size a ≤ S4096x3.size a)
    (a : Fin 4096) (z : Fin 1) :
    (Rect.unit (s := S4096x3) ![0, c] S4096x1.size inb).emb (ix2 a z) = ix2 a ⟨c, hc⟩ := by
  obtain rfl : z = 0 := Subsingleton.elim _ _
  funext d
  match d with
  | ⟨0, _⟩ => exact Fin.ext (by show 0 + 1 * a.val = a.val; omega)
  | ⟨1, _⟩ => exact Fin.ext (by show c + 1 * 0 = c; omega)

/-- What the kernel body leaves in its output block, at row `p`, column `q`: the collapsed form of row `p` of the
    input block. The three stores are the three columns; each column's payload is the matching product. -/
theorem out0_1_apply (x0 : Vec Ideal S4096x9 .f32) (p : Fin 4096) (q : Fin 3) :
    Cert.KernelIdeal.Gen.out0_1 (F := Ideal) x0 (ix2 p q) = Cert.RowSpec.collapsed (fun j => x0 (ix2 p j)) q := by
  have hld : View.ld x0 r0_0 = x0 :=
    View.ld_unit_zero (funext fun a => match a with | ⟨0, _⟩ => rfl | ⟨1, _⟩ => rfl) _ x0
  unfold out0_1
  rw [hld]
  refine (View.canon_apply_of_pieces (Val := Elt Ideal) (blockSpec x0) _ ?_ (ix2 p q) (cover0_1 _ _ _ _)).trans
    (blockSpec_ix2 x0 p q)
  intro pc hpc x
  simp only [List.mem_cons, List.not_mem_nil, or_false] at hpc
  rcases hpc with rfl | rfl | rfl
  · obtain ⟨a, z, rfl⟩ : ∃ (a : Fin 4096) (z : Fin 1), x = ix2 a z := ⟨x 0, x 1, eq_ix2 x⟩
    exact (pay5_apply x0 a z).trans ((blockSpec_ix2 x0 a ⟨2, by omega⟩).symm.trans
      (congrArg (blockSpec x0) (emb_col 2 (by omega) _ a z : r0_3.emb (ix2 a z) = ix2 a ⟨2, by omega⟩).symm))
  · obtain ⟨a, z, rfl⟩ : ∃ (a : Fin 4096) (z : Fin 1), x = ix2 a z := ⟨x 0, x 1, eq_ix2 x⟩
    exact (pay4_apply x0 a z).trans ((blockSpec_ix2 x0 a ⟨1, by omega⟩).symm.trans
      (congrArg (blockSpec x0) (emb_col 1 (by omega) _ a z : r0_2.emb (ix2 a z) = ix2 a ⟨1, by omega⟩).symm))
  · obtain ⟨a, z, rfl⟩ : ∃ (a : Fin 4096) (z : Fin 1), x = ix2 a z := ⟨x 0, x 1, eq_ix2 x⟩
    exact (pay3_apply x0 a z).trans ((blockSpec_ix2 x0 a ⟨0, by omega⟩).symm.trans
      (congrArg (blockSpec x0) (emb_col 0 (by omega) _ a z : r0_1.emb (ix2 a z) = ix2 a ⟨0, by omega⟩).symm))

end Cert.KernelRow

end
-- ==== Proof.KernelValue.lean ====
/-
  The idealized kernel's run, read as a value.

  The output array [4194304, 3] is written back block by block: grid point `t` writes rows `4096·t … 4096·t + 4095`,
  and what it writes at local row `p`, column `q` is the collapsed three-product form of row `4096·t + p` of the
  argument.  Every row belongs to exactly one point's block (the point `row / 4096`), so after the run the array holds, at
  `(b, q)`, the collapsed form of row `b`.  The program then reshapes [4194304, 3] to [4194304, 1, 3], which keeps
  the row-major position: `(b, 0, q)` reads `(b, q)`.
-/
import proofs.«157801_j78185584656835_1_alg».proof.Proof.Gen.KernelIdeal.Frame
import proofs.«157801_j78185584656835_1_alg».proof.Proof.RowSpec
import proofs.«157801_j78185584656835_1_alg».proof.Proof.KernelRow
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelValue

open Cert.KernelIdeal Cert.KernelIdeal.Gen

variable (m : (ℓ : Loc nD τ sig) → Buf (Elt Ideal) ℓ) (ρ : Dev nD → PrngReg)

/-- The [rows, 3] array whose row `b` is the collapsed form of row `b` of `x`. -/
abbrev rowsOf (x : S4194304x9.Idx → EReal) : S4194304x3.Idx → EReal :=
  fun i => Cert.RowSpec.collapsed (fun j => x (ix2 (i 0) j)) (i 1)

/-- The same rows under the final reshape: entry `(b, 0, q)`. -/
abbrev result (x : S4194304x9.Idx → EReal) : S4194304x1x3.Idx → EReal :=
  fun i => Cert.RowSpec.collapsed (fun j => x (ix2 (i 0) j)) (i 2)

/-- Both windows' block index at point `t` is `(t, 0)`. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- One output block against the whole array: if the input block `x0` holds rows `4096·tv + p` of `xa`, then the
    body's output block at `y` is `rowsOf xa` at the index `i` with `i₀ = 4096·tv + y₀`, `i₁ = y₁`. -/
theorem block_rows (x0 : Vec Ideal S4096x9 .f32) (xa : S4194304x9.Idx → EReal) (tv : Nat) (p : Fin 4096) (q : Fin 3) (i : S4194304x3.Idx)
    (hx : ∀ (p : Fin 4096) (j : Fin 9) (b : Fin 4194304), b.val = tv * 4096 + p.val → x0 (ix2 p j) = xa (ix2 b j))
    (hi0 : (i 0).val = tv * 4096 + p.val) (hi1 : (i 1).val = q.val) :
    out0_1 (F := Ideal) x0 (ix2 p q) = rowsOf xa i := by
  rw [Cert.KernelRow.out0_1_apply]
  show Cert.RowSpec.collapsed _ _ = Cert.RowSpec.collapsed _ _
  have e1 : q = i 1 := Fin.ext hi1.symm
  have e0 : (fun j => x0 (ix2 p j)) = fun j => xa (ix2 (i 0) j) := funext fun j => hx p j (i 0) hi0
  rw [e0, e1]

/-- What point `t` writes back is block `t` of `rowsOf` of the argument array. -/
theorem flushed_eq (c : Dev nD) (t : Fin cfg0.N) :
    (dats m 0 c).flushed 1 t = ((cfg0.win 1).blk t).view.read (Elt Ideal) (rowsOf (V m c main_arg0)) := by
  show (cfg0.win 1).cut (grid0.coords t) ((dats m 0 c).after 1 t) = _
  rw [after0_1]
  obtain ⟨e0, e1, e2, e3⟩ := block_index t
  funext y
  refine (congrArg (out0_1 (F := Ideal) (iblk m c 0 t)) (eq_ix2 (n0 := 4096) (n1 := 3) y)).trans ?_
  refine block_rows (iblk m c 0 t) (V m c main_arg0) t.val (y 0) (y 1) (((cfg0.win 1).blk t).view.emb y) ?_ ?_ ?_
  · intro p j b hb
    show V m c main_arg0 (((cfg0.win 0).blk t).view.emb (ix2 p j)) = V m c main_arg0 (ix2 b j)
    refine congrArg (V m c main_arg0) (funext fun a => Fin.ext ?_)
    match a with
    | ⟨0, _⟩ => show win0_0.index t (0 : Fin 2) * 4096 + 1 * p.val = b.val; omega
    | ⟨1, _⟩ => show win0_0.index t (1 : Fin 2) * 9 + 1 * j.val = j.val; omega
  · show win0_1.index t (0 : Fin 2) * 4096 + 1 * (y 0).val = t.val * 4096 + (y 0).val; omega
  · show win0_1.index t (1 : Fin 2) * 3 + 1 * (y 1).val = (y 1).val; omega

/-- An index of the output array is in point `t`'s block iff each coordinate is in the block's range. -/
theorem mem_block (t : Fin cfg0.N) (i : S4194304x3.Idx) :
    i ∈ ((cfg0.win 1).blk t).view.set ↔ ∀ a : Fin 2, win0_1.index t a * S4096x3.size a ≤ (i a).val
      ∧ (i a).val < win0_1.index t a * S4096x3.size a + S4096x3.size a := by
  show i ∈ ((View.whole main_v0).slice (win0_1.rect t)).set ↔ _
  rw [View.set_slice_whole, Rect.mem_set_unit]
  exact Iff.rfl

/-- Row `b` is in the block of point `b / 4096`. -/
theorem covered (i : S4194304x3.Idx) : ∃ t : Fin cfg0.N, (cfg0.win 1).flush t = true ∧ i ∈ ((cfg0.win 1).blk t).view.set := by
  have h0 : (i 0).val < 4194304 := (i 0).isLt
  have h1 : (i 1).val < 3 := (i 1).isLt
  let t : Fin cfg0.N := ⟨(i 0).val / 4096, by rw [show cfg0.N = 1024 from N_0]; omega⟩
  obtain ⟨e0, e1, e2, e3⟩ := block_index t
  have ht : t.val = (i 0).val / 4096 := rfl
  refine ⟨t, flush0_1 t, ?_⟩
  rw [mem_block]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 3 ≤ (i 1).val ∧ (i 1).val < win0_1.index t (1 : Fin 2) * 3 + 3; omega

/-- The output array after the region. -/
theorem array_eq (c : Dev nD) : (dats m 0 c).arrAt 1 cfg0.N = rowsOf (m ((c : Thread nD τ).loc main_arg0)) :=
  ((dats m 0 c).arrAt_eq_of_cover 1 (rowsOf (V m c main_arg0)) (fun t _ => flushed_eq m c t) covered).trans
    (by rw [V_main_arg0])

/-- The reshape keeps the row-major position: `(b, 0, q)` of the result is `(b, q)` of the array. -/
theorem reshape_rows (x : S4194304x9.Idx → EReal) :
    shapeCast S4194304x1x3 (rowsOf x) shapeCasts_S4194304x3_S4194304x1x3 = result x := by
  funext i
  have h0 : (i 0).val < 4194304 := (i 0).isLt
  have h1 : (i 1).val < 1 := (i 1).isLt
  have h2 : (i 2).val < 3 := (i 2).isLt
  rw [shapeCast_apply (rowsOf x) shapeCasts_S4194304x3_S4194304x1x3 i (ix2 (i 0) (i 2))
    (by rewrite [Shape.rowMajor_val_two, Shape.rowMajor_val_three]
        show (i 0).val * 3 + (i 2).val = ((i 0).val * 1 + (i 1).val) * 3 + (i 2).val; omega)]

/-- The program's result buffer after the run. -/
theorem tail_eq (c : Dev nD) :
    Pipeline.afterTail₀ cfgs (dats m) 0 (V0 m) [hostOps1] c main_v1 = result (m ((c : Thread nD τ).loc main_arg0)) := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.devRef .tc main_v0)
      = rowsOf (m ((c : Thread nD τ).loc main_arg0)) :=
    (Pipeline.withArrays_arr spec0 launch0.win.arr_inj c _ _ 1).trans (array_eq m c)
  show shapeCast S4194304x1x3 (Pipeline.withArrays (cfgs 0).spec c (V0 m c) (fun w => (dats m 0 c).arrAt w (cfgs 0).N) (Proc.devRef .tc main_v0)) shapeCasts_S4194304x3_S4194304x1x3 = _
  rw [hA]
  exact reshape_rows _

/-- The run, read: the result buffer at `result` of the argument, the argument unchanged. -/
theorem run : θ_run defs (onTc (τ := τ) (main (F := Ideal))) ⟨m, fun _ => 0, ρ⟩ fun r => ∀ c : Dev nD,
      r.2.mem ((c.tc : Thread nD τ).loc main_v1) = result (m ((c.tc : Thread nD τ).loc main_arg0))
      ∧ r.2.mem ((c.tc : Thread nD τ).loc main_arg0) = m ((c.tc : Thread nD τ).loc main_arg0) :=
  (θ_run defs _ _).mono (fun r h c => ⟨((h c).2 main_v1 (by decide)).trans (tail_eq m c),
      ((h c).1 0).trans (((dats m 0 c).arrAt_in 0 rfl _).trans ((A_eq m c 0).trans (V_main_arg0 m c)))⟩)
    (run_main m ρ)

end Cert.KernelValue

end
-- ==== Proof.RefTail.lean ====
/-
  The tail of the reference, read at an index.

  Per row `b` the reference stacks two 2×2 matrices (column `0` the normalised first vector of a pair, column `1` the
  orthonormal second), writes the second pair's at the top left and the first pair's at the bottom right of a 3×3
  identity, multiplies the two, and applies the product to the column `(0, 0, d)`.

  Writing a block into an array is a left fold, over the update indices, of steps that each overwrite the one element
  the update index lands on.  Read at one index, such a fold gives the start value when no update index lands there, and
  the update's value when exactly one does.  On each axis the landing coordinate is the start word (read signed) plus
  the window coordinate; for the three writes here it is inside the array for every update index and injective, so each
  element of the result is either one named update element or the operand's.
-/
import proofs.«157801_j78185584656835_1_alg».proof.Proof.Gen.ReferenceIdeal.Read
import proofs.«157801_j78185584656835_1_alg».proof.Proof.RowSpec

noncomputable section

namespace Cert.RefTail

open Cert.ReferenceIdeal Cert.ReferenceIdeal.Gen Cert.ReferenceIdeal.Read Idealize.ShloMosaic Idealize.ShloMosaic.ValueIdx

/-! ## A fold of pointwise overwrites, read at one index -/

/-- A left fold of steps each of which leaves index `i₀` alone unless its element lands there (`g n = some i₀`), in
    which case it puts `upd n` there: when no element of the list lands on `i₀`, the start value survives. -/
theorem foldl_read_miss {ι κ α : Type} (step : (ι → α) → κ → (ι → α)) (g : κ → Option ι) (i₀ : ι)
    (hmiss : ∀ r n, g n ≠ some i₀ → step r n i₀ = r i₀) :
    ∀ (l : List κ) (x : ι → α), (∀ n ∈ l, g n ≠ some i₀) → l.foldl step x i₀ = x i₀ := by
  intro l
  induction l with
  | nil => intro x _; rfl
  | cons n l ih =>
    intro x h
    rw [List.foldl_cons, ih (step x n) (fun m hm => h m (List.mem_cons_of_mem _ hm))]
    exact hmiss x n (h n List.mem_cons_self)

/-- The same fold when some element lands on `i₀` and every element that lands there carries the value `v`: the
    result at `i₀` is `v`. -/
theorem foldl_read_hit {ι κ α : Type} (step : (ι → α) → κ → (ι → α)) (g : κ → Option ι) (upd : κ → α) (i₀ : ι) (v : α)
    (hhit : ∀ r n, g n = some i₀ → step r n i₀ = upd n)
    (hmiss : ∀ r n, g n ≠ some i₀ → step r n i₀ = r i₀) :
    ∀ (l : List κ) (x : ι → α), (∀ n ∈ l, g n = some i₀ → upd n = v) →
      ((∃ n ∈ l, g n = some i₀) ∨ x i₀ = v) → l.foldl step x i₀ = v := by
  intro l
  induction l with
  | nil =>
    intro x _ h
    rcases h with ⟨n, hn, _⟩ | h
    · cases hn
    · exact h
  | cons n l ih =>
    intro x hv h
    rw [List.foldl_cons]
    refine ih (step x n) (fun m hm => hv m (List.mem_cons_of_mem _ hm)) ?_
    by_cases hn : g n = some i₀
    · right; rw [hhit x n hn]; exact hv n List.mem_cons_self hn
    · rw [hmiss x n hn]
      rcases h with ⟨m, hm, hgm⟩ | h
      · left
        rcases List.mem_cons.1 hm with rfl | hm'
        · exact absurd hgm hn
        · exact ⟨m, hm', hgm⟩
      · right; exact h

/-! ## A scatter whose body returns the update, read at one index -/

section Scatter
variable {α : Type} {w : Nat} {s si u : Shape}

/-- No update index lands on `i₀`: the operand's element survives. -/
theorem scatter_read_miss (d : ScatterDims s si u) (x : s.Idx → α) (idx : IVec si w) (upd : u.Idx → α) (i₀ : s.Idx)
    (h : ∀ j : u.Idx, d.resultIdx? j idx ≠ some i₀) :
    Host.scatter d (fun _ b => b) x idx upd i₀ = x i₀ := by
  unfold Host.scatter
  refine foldl_read_miss _ (fun n => d.resultIdx? (u.rowMajor.symm n) idx) i₀ ?_ _ x (fun n _ => h _)
  intro r n hn
  show (match d.resultIdx? (u.rowMajor.symm n) idx with
      | some i => fun i' => if i' = i then upd (u.rowMajor.symm n) else r i'
      | none => r) i₀ = r i₀
  generalize d.resultIdx? (u.rowMajor.symm n) idx = o at hn
  cases o with
  | none => rfl
  | some i =>
    have : i₀ ≠ i := fun e => hn (by rw [e])
    show (if i₀ = i then _ else _) = _
    rw [if_neg this]

/-- The update index `j₀` lands on `i₀` and is the only one that does: the result holds its update. -/
theorem scatter_read_hit (d : ScatterDims s si u) (x : s.Idx → α) (idx : IVec si w) (upd : u.Idx → α) (i₀ : s.Idx)
    (j₀ : u.Idx) (h₀ : d.resultIdx? j₀ idx = some i₀) (huniq : ∀ j : u.Idx, d.resultIdx? j idx = some i₀ → j = j₀) :
    Host.scatter d (fun _ b => b) x idx upd i₀ = upd j₀ := by
  unfold Host.scatter
  refine foldl_read_hit _ (fun n => d.resultIdx? (u.rowMajor.symm n) idx) (fun n => upd (u.rowMajor.symm n)) i₀ (upd j₀)
    ?_ ?_ _ x (fun n _ hn => by rw [huniq _ hn]) (Or.inl ⟨u.rowMajor j₀, List.mem_finRange _, by rw [Equiv.symm_apply_apply]; exact h₀⟩)
  · intro r n hn
    show (match d.resultIdx? (u.rowMajor.symm n) idx with
        | some i => fun i' => if i' = i then upd (u.rowMajor.symm n) else r i'
        | none => r) i₀ = upd (u.rowMajor.symm n)
    have hn' : d.resultIdx? (u.rowMajor.symm n) idx = some i₀ := hn
    rw [hn']
    show (if i₀ = i₀ then _ else _) = _
    rw [if_pos rfl]
  · intro r n hn
    show (match d.resultIdx? (u.rowMajor.symm n) idx with
        | some i => fun i' => if i' = i then upd (u.rowMajor.symm n) else r i'
        | none => r) i₀ = r i₀
    generalize d.resultIdx? (u.rowMajor.symm n) idx = o at hn
    cases o with
    | none => rfl
    | some i =>
      have : i₀ ≠ i := fun e => hn (by rw [e])
      show (if i₀ = i then _ else _) = _
      rw [if_neg this]

end Scatter

/-! ## The start-index vectors -/

/-- Both start words of the top-left write are `0`. -/
theorem v55_apply (i : S2.Idx) : val_main_v55 (F := Ideal) i = 0#32 := by
  unfold val_main_v55
  have hlt : (i 0).val < 2 := (i 0).isLt
  by_cases h : (i 0).val = 0
  · rw [concatenate_pair_apply_left (s₁ := S1) (s₂ := S1) 0 _ _ _ i rfl (ix1 (⟨0, Nat.one_pos⟩ : Fin 1))
      (fun b => match b with | ⟨0, _⟩ => by show 0 = (i 0).val; omega)]
    rfl
  · rw [concatenate_pair_apply_right (s₁ := S1) (s₂ := S1) 0 _ _ _ i rfl rfl (ix1 (⟨0, Nat.one_pos⟩ : Fin 1))
      (fun b => match b with | ⟨0, _⟩ => fun hb => absurd rfl hb)
      (by show 0 + 1 = (i 0).val; omega)]
    rfl

/-- Both start words of the bottom-right write are `1`. -/
theorem v59_apply (i : S2.Idx) : val_main_v59 (F := Ideal) i = 1#32 := by
  unfold val_main_v59
  have hlt : (i 0).val < 2 := (i 0).isLt
  by_cases h : (i 0).val = 0
  · rw [concatenate_pair_apply_left (s₁ := S1) (s₂ := S1) 0 _ _ _ i rfl (ix1 (⟨0, Nat.one_pos⟩ : Fin 1))
      (fun b => match b with | ⟨0, _⟩ => by show 0 = (i 0).val; omega)]
    rfl
  · rw [concatenate_pair_apply_right (s₁ := S1) (s₂ := S1) 0 _ _ _ i rfl rfl (ix1 (⟨0, Nat.one_pos⟩ : Fin 1))
      (fun b => match b with | ⟨0, _⟩ => fun hb => absurd rfl hb)
      (by show 0 + 1 = (i 0).val; omega)]
    rfl

/-- The start words of the column write are `(2, 0)`. -/
theorem v65_apply (i : S2.Idx) : val_main_v65 (F := Ideal) i = if (i 0).val = 0 then 2#32 else 0#32 := by
  unfold val_main_v65
  have hlt : (i 0).val < 2 := (i 0).isLt
  by_cases h : (i 0).val = 0
  · rw [if_pos h, concatenate_pair_apply_left (s₁ := S1) (s₂ := S1) 0 _ _ _ i rfl (ix1 (⟨0, Nat.one_pos⟩ : Fin 1))
      (fun b => match b with | ⟨0, _⟩ => by show 0 = (i 0).val; omega)]
    rfl
  · rw [if_neg h, concatenate_pair_apply_right (s₁ := S1) (s₂ := S1) 0 _ _ _ i rfl rfl (ix1 (⟨0, Nat.one_pos⟩ : Fin 1))
      (fun b => match b with | ⟨0, _⟩ => fun hb => absurd rfl hb)
      (by show 0 + 1 = (i 0).val; omega)]
    rfl

/-! ## Where an update index of the block write lands -/

/-- The block write's window coordinate on every axis is the update's own coordinate. -/
theorem blk_window (j : S4194304x2x2.Idx) (a : Fin 3) :
    scatter_S4194304x3x3_S2_S4194304x2x2_012_n_12_0.window j a = (j a).val := by
  have h0 : scatter_S4194304x3x3_S2_S4194304x2x2_012_n_12_0.window j (0 : Fin S4194304x3x3.rank) = (j 0).val := by
    unfold ScatterDims.window; rw [dif_pos (by decide)]; rfl
  have h1 : scatter_S4194304x3x3_S2_S4194304x2x2_012_n_12_0.window j (1 : Fin S4194304x3x3.rank) = (j 1).val := by
    unfold ScatterDims.window; rw [dif_pos (by decide)]; rfl
  have h2 : scatter_S4194304x3x3_S2_S4194304x2x2_012_n_12_0.window j (2 : Fin S4194304x3x3.rank) = (j 2).val := by
    unfold ScatterDims.window; rw [dif_pos (by decide)]; rfl
  match a with
  | ⟨0, _⟩ => exact h0
  | ⟨1, _⟩ => exact h1
  | ⟨2, _⟩ => exact h2

/-- The block write's start on the batch axis is `0`, on the two matrix axes the start word read signed. -/
theorem blk_start (j : S4194304x2x2.Idx) (idx : IVec S2 32) (c : BitVec 32) (hidx : ∀ i, idx i = c) (a : Fin 3) :
    scatter_S4194304x3x3_S2_S4194304x2x2_012_n_12_0.start j idx a = if a.val = 0 then 0 else c.toInt := by
  have h0 : scatter_S4194304x3x3_S2_S4194304x2x2_012_n_12_0.start j idx (0 : Fin S4194304x3x3.rank) = 0 := by
    unfold ScatterDims.start; rw [dif_neg (by decide)]
  have h1 : scatter_S4194304x3x3_S2_S4194304x2x2_012_n_12_0.start j idx (1 : Fin S4194304x3x3.rank) = c.toInt := by
    unfold ScatterDims.start; rw [dif_pos (by decide), hidx]
  have h2 : scatter_S4194304x3x3_S2_S4194304x2x2_012_n_12_0.start j idx (2 : Fin S4194304x3x3.rank) = c.toInt := by
    unfold ScatterDims.start; rw [dif_pos (by decide), hidx]
  match a with
  | ⟨0, _⟩ => exact h0
  | ⟨1, _⟩ => exact h1
  | ⟨2, _⟩ => exact h2

/-- Where update index `j` of the block write lands when both start words are `o ≤ 1`: row and column moved by `o`. -/
def blkLand (o : Nat) (ho : o ≤ 1) (j : S4194304x2x2.Idx) : S4194304x3x3.Idx :=
  ix3 (⟨(j 0).val, (j 0).isLt⟩ : Fin 4194304)
    (⟨o + (j 1).val, by have h : (j 1).val < 2 := (j 1).isLt; omega⟩ : Fin 3)
    (⟨o + (j 2).val, by have h : (j 2).val < 2 := (j 2).isLt; omega⟩ : Fin 3)

theorem blk_resultIdx (idx : IVec S2 32) (c : BitVec 32) (hidx : ∀ i, idx i = c) (o : Nat) (ho : o ≤ 1)
    (hc : c.toInt = (o : Int)) (j : S4194304x2x2.Idx) :
    scatter_S4194304x3x3_S2_S4194304x2x2_012_n_12_0.resultIdx? j idx = some (blkLand o ho j) := by
  have h0 : (j 0).val < 4194304 := (j 0).isLt
  have h1 : (j 1).val < 2 := (j 1).isLt
  have h2 : (j 2).val < 2 := (j 2).isLt
  have hs : ∀ a : Fin 3, scatter_S4194304x3x3_S2_S4194304x2x2_012_n_12_0.start j idx a
      + scatter_S4194304x3x3_S2_S4194304x2x2_012_n_12_0.window j a = ((blkLand o ho j a).val : Int) := by
    intro a
    rw [blk_start j idx c hidx a, blk_window j a, hc]
    match a with
    | ⟨0, _⟩ => show (if (0 : Nat) = 0 then (0 : Int) else (o : Int)) + ((j 0).val : Int) = (((j 0).val : Nat) : Int); simp
    | ⟨1, _⟩ => show (if (1 : Nat) = 0 then (0 : Int) else (o : Int)) + ((j 1).val : Int) = ((o + (j 1).val : Nat) : Int); simp
    | ⟨2, _⟩ => show (if (2 : Nat) = 0 then (0 : Int) else (o : Int)) + ((j 2).val : Int) = ((o + (j 2).val : Nat) : Int); simp
  unfold ScatterDims.resultIdx?
  rw [dif_pos (fun a => by
    have := hs a
    have hlt := (blkLand o ho j a).isLt
    constructor <;> omega)]
  refine congrArg some (funext fun a => Fin.ext ?_)
  show (scatter_S4194304x3x3_S2_S4194304x2x2_012_n_12_0.start j idx a
      + scatter_S4194304x3x3_S2_S4194304x2x2_012_n_12_0.window j a).toNat = (blkLand o ho j a).val
  rw [hs a]; rfl

/-! ## Where an update index of the column write lands -/

/-- The column write's window coordinate: the update's coordinate on the batch axis, `0` on the two inserted axes. -/
theorem col_window (j : S4194304.Idx) (a : Fin 3) :
    scatter_S4194304x3x1_S2_S4194304_0_12_12_0.window j a = if a.val = 0 then (j 0).val else 0 := by
  have h0 : scatter_S4194304x3x1_S2_S4194304_0_12_12_0.window j (0 : Fin S4194304x3x1.rank) = (j 0).val := by
    unfold ScatterDims.window; rw [dif_pos (by decide)]; rfl
  have h1 : scatter_S4194304x3x1_S2_S4194304_0_12_12_0.window j (1 : Fin S4194304x3x1.rank) = 0 := by
    unfold ScatterDims.window; rw [dif_neg (by decide)]
  have h2 : scatter_S4194304x3x1_S2_S4194304_0_12_12_0.window j (2 : Fin S4194304x3x1.rank) = 0 := by
    unfold ScatterDims.window; rw [dif_neg (by decide)]
  match a with
  | ⟨0, _⟩ => exact h0
  | ⟨1, _⟩ => exact h1
  | ⟨2, _⟩ => exact h2

/-- The start-index position the column write reads for component `c` is `c` itself. -/
theorem col_siIdx (j : S4194304.Idx) (c : Fin scatter_S4194304x3x1_S2_S4194304_0_12_12_0.scatterDimsToOperandDims.length) :
    (scatter_S4194304x3x1_S2_S4194304_0_12_12_0.siIdx j c (0 : Fin S2.rank)).val = c.val := by
  unfold ScatterDims.siIdx
  rw [dif_pos (show ((0 : Fin S2.rank)).val = scatter_S4194304x3x1_S2_S4194304_0_12_12_0.indexVectorDim from rfl)]

/-- The column write's start: `0` on the batch axis, the two start words read signed on the others. -/
theorem col_start (j : S4194304.Idx) (a : Fin 3) :
    scatter_S4194304x3x1_S2_S4194304_0_12_12_0.start j (val_main_v65 (F := Ideal)) a = if a.val = 1 then 2 else 0 := by
  have h0 : scatter_S4194304x3x1_S2_S4194304_0_12_12_0.start j (val_main_v65 (F := Ideal)) (0 : Fin S4194304x3x1.rank) = 0 := by
    unfold ScatterDims.start; rw [dif_neg (by decide)]
  have h1 : scatter_S4194304x3x1_S2_S4194304_0_12_12_0.start j (val_main_v65 (F := Ideal)) (1 : Fin S4194304x3x1.rank) = 2 := by
    unfold ScatterDims.start; rw [dif_pos (by decide), v65_apply, col_siIdx, if_pos (by decide)]; decide
  have h2 : scatter_S4194304x3x1_S2_S4194304_0_12_12_0.start j (val_main_v65 (F := Ideal)) (2 : Fin S4194304x3x1.rank) = 0 := by
    unfold ScatterDims.start; rw [dif_pos (by decide), v65_apply, col_siIdx, if_neg (by decide)]; decide
  match a with
  | ⟨0, _⟩ => exact h0
  | ⟨1, _⟩ => exact h1
  | ⟨2, _⟩ => exact h2

/-- Update index `j` of the column write lands on row `2`, column `0` of its own batch. -/
def colLand (j : S4194304.Idx) : S4194304x3x1.Idx :=
  ix3 (⟨(j 0).val, (j 0).isLt⟩ : Fin 4194304) (⟨2, by decide⟩ : Fin 3) (⟨0, Nat.one_pos⟩ : Fin 1)

theorem col_resultIdx (j : S4194304.Idx) :
    scatter_S4194304x3x1_S2_S4194304_0_12_12_0.resultIdx? j (val_main_v65 (F := Ideal)) = some (colLand j) := by
  have h0 : (j 0).val < 4194304 := (j 0).isLt
  have hs : ∀ a : Fin 3, scatter_S4194304x3x1_S2_S4194304_0_12_12_0.start j (val_main_v65 (F := Ideal)) a
      + scatter_S4194304x3x1_S2_S4194304_0_12_12_0.window j a = ((colLand j a).val : Int) := by
    intro a
    rw [col_start j a, col_window j a]
    match a with
    | ⟨0, _⟩ => show (if (0 : Nat) = 1 then (2 : Int) else 0) + ((if (0 : Nat) = 0 then (j 0).val else 0 : Nat) : Int) = (((j 0).val : Nat) : Int); simp
    | ⟨1, _⟩ => show (if (1 : Nat) = 1 then (2 : Int) else 0) + ((if (1 : Nat) = 0 then (j 0).val else 0 : Nat) : Int) = ((2 : Nat) : Int); simp
    | ⟨2, _⟩ => show (if (2 : Nat) = 1 then (2 : Int) else 0) + ((if (2 : Nat) = 0 then (j 0).val else 0 : Nat) : Int) = ((0 : Nat) : Int); simp
  unfold ScatterDims.resultIdx?
  rw [dif_pos (fun a => by
    have := hs a
    have hlt := (colLand j a).isLt
    constructor <;> omega)]
  refine congrArg some (funext fun a => Fin.ext ?_)
  show (scatter_S4194304x3x1_S2_S4194304_0_12_12_0.start j (val_main_v65 (F := Ideal)) a
      + scatter_S4194304x3x1_S2_S4194304_0_12_12_0.window j a).toNat = (colLand j a).val
  rw [hs a]; rfl

/-! ## The stacked 2×2 matrices: column `0` is the first vector, column `1` the second -/

theorem v21_apply (x0 : (⟨S4194304x9, .f32⟩ : BufTy).Contents (Elt Ideal)) (b : Fin 4194304) (r c : Fin 2) :
    val_main_v21 (F := Ideal) x0 (ix3 b r c)
      = if c.val = 0 then val_main_v7 (F := Ideal) x0 (ix2 b r) else val_main_v18 (F := Ideal) x0 (ix2 b r) := by
  unfold val_main_v21
  have hc : c.val < 2 := c.isLt
  by_cases h : c.val = 0
  · have e : idx_main_v19 (ix3 b r (⟨0, Nat.one_pos⟩ : Fin 1)) = ix2 b r :=
      funext fun a => match a with | ⟨0, _⟩ => rfl | ⟨1, _⟩ => rfl
    rw [if_pos h, concatenate_pair_apply_left (s₁ := S4194304x2x1) (s₂ := S4194304x2x1) 2 _ _ _ (ix3 b r c) rfl
      (ix3 b r (⟨0, Nat.one_pos⟩ : Fin 1))
      (fun a => match a with
        | ⟨0, _⟩ => rfl
        | ⟨1, _⟩ => rfl
        | ⟨2, _⟩ => by show 0 = c.val; omega),
      val_main_v19_apply, e]
  · have e : idx_main_v20 (ix3 b r (⟨0, Nat.one_pos⟩ : Fin 1)) = ix2 b r :=
      funext fun a => match a with | ⟨0, _⟩ => rfl | ⟨1, _⟩ => rfl
    rw [if_neg h, concatenate_pair_apply_right (s₁ := S4194304x2x1) (s₂ := S4194304x2x1) 2 _ _ _ (ix3 b r c) rfl rfl
      (ix3 b r (⟨0, Nat.one_pos⟩ : Fin 1))
      (fun a => match a with
        | ⟨0, _⟩ => fun _ => rfl
        | ⟨1, _⟩ => fun _ => rfl
        | ⟨2, _⟩ => fun hb => absurd rfl hb)
      (by show 0 + 1 = c.val; omega),
      val_main_v20_apply, e]

theorem v43_apply (x0 : (⟨S4194304x9, .f32⟩ : BufTy).Contents (Elt Ideal)) (b : Fin 4194304) (r c : Fin 2) :
    val_main_v43 (F := Ideal) x0 (ix3 b r c)
      = if c.val = 0 then val_main_v29 (F := Ideal) x0 (ix2 b r) else val_main_v40 (F := Ideal) x0 (ix2 b r) := by
  unfold val_main_v43
  have hc : c.val < 2 := c.isLt
  by_cases h : c.val = 0
  · have e : idx_main_v41 (ix3 b r (⟨0, Nat.one_pos⟩ : Fin 1)) = ix2 b r :=
      funext fun a => match a with | ⟨0, _⟩ => rfl | ⟨1, _⟩ => rfl
    rw [if_pos h, concatenate_pair_apply_left (s₁ := S4194304x2x1) (s₂ := S4194304x2x1) 2 _ _ _ (ix3 b r c) rfl
      (ix3 b r (⟨0, Nat.one_pos⟩ : Fin 1))
      (fun a => match a with
        | ⟨0, _⟩ => rfl
        | ⟨1, _⟩ => rfl
        | ⟨2, _⟩ => by show 0 = c.val; omega),
      val_main_v41_apply, e]
  · have e : idx_main_v42 (ix3 b r (⟨0, Nat.one_pos⟩ : Fin 1)) = ix2 b r :=
      funext fun a => match a with | ⟨0, _⟩ => rfl | ⟨1, _⟩ => rfl
    rw [if_neg h, concatenate_pair_apply_right (s₁ := S4194304x2x1) (s₂ := S4194304x2x1) 2 _ _ _ (ix3 b r c) rfl rfl
      (ix3 b r (⟨0, Nat.one_pos⟩ : Fin 1))
      (fun a => match a with
        | ⟨0, _⟩ => fun _ => rfl
        | ⟨1, _⟩ => fun _ => rfl
        | ⟨2, _⟩ => fun hb => absurd rfl hb)
      (by show 0 + 1 = c.val; omega),
      val_main_v42_apply, e]

/-! ## The broadcast identity -/

/-- The comparison of the two coordinate counters, as a bit. -/
theorem eye_bit (i j : Fin 3) :
    IntOp.cmpi .eq (IntOp.addi (BitVec.ofNat 32 i.val) 0#32) (BitVec.ofNat 32 j.val) = if i = j then 1#1 else 0#1 := by
  revert i j; decide

theorem v52_apply (b : Fin 4194304) (i j : Fin 3) : val_main_v52 (F := Ideal) (ix3 b i j) = Cert.RowSpec.eye i j := by
  rw [val_main_v52_apply, val_main_v51_apply, val_main_v50_apply, val_main_v49_apply, val_main_v46_apply,
    val_main_v47_apply, val_main_v48_apply, val_main_c_apply]
  show (((IntOp.cmpi .eq (IntOp.addi (BitVec.ofNat 32 i.val) 0#32) (BitVec.ofNat 32 j.val)).toNat : ℝ) : EReal)
    = Cert.RowSpec.eye i j
  rw [eye_bit]
  unfold Cert.RowSpec.eye
  by_cases h : i = j
  · rw [if_pos h, if_pos h]; simp
  · rw [if_neg h, if_neg h]; simp

/-! ## The three writes, read at coordinates -/

/-- The block write with both start words `o ≤ 1`: rows and columns `o, o + 1` hold the update, the rest the operand. -/
theorem blk_read (x : S4194304x3x3.Idx → EReal) (idx : IVec S2 32) (upd : S4194304x2x2.Idx → EReal) (c : BitVec 32)
    (hidx : ∀ i, idx i = c) (o : Nat) (ho : o ≤ 1) (hc : c.toInt = (o : Int)) (b : Fin 4194304) (i j : Fin 3) :
    Host.scatter scatter_S4194304x3x3_S2_S4194304x2x2_012_n_12_0 (fun _ b => b) x idx upd (ix3 b i j)
      = if h : (o ≤ i.val ∧ i.val < o + 2) ∧ (o ≤ j.val ∧ j.val < o + 2) then
          upd (ix3 b (⟨i.val - o, by omega⟩ : Fin 2) (⟨j.val - o, by omega⟩ : Fin 2))
        else x (ix3 b i j) := by
  by_cases h : (o ≤ i.val ∧ i.val < o + 2) ∧ (o ≤ j.val ∧ j.val < o + 2)
  · rw [dif_pos h]
    refine scatter_read_hit _ x idx upd (ix3 b i j) (ix3 b (⟨i.val - o, by omega⟩ : Fin 2) (⟨j.val - o, by omega⟩ : Fin 2)) ?_ ?_
    · rw [blk_resultIdx idx c hidx o ho hc]
      refine congrArg some (funext fun a => ?_)
      match a with
      | ⟨0, _⟩ => rfl
      | ⟨1, _⟩ => exact Fin.ext (by show o + (i.val - o) = i.val; omega)
      | ⟨2, _⟩ => exact Fin.ext (by show o + (j.val - o) = j.val; omega)
    · intro j' hj'
      rw [blk_resultIdx idx c hidx o ho hc] at hj'
      have e := Option.some.inj hj'
      have e0 : (j' 0).val = b.val := congrArg Fin.val (congrFun e (0 : Fin 3))
      have e1 : o + (j' 1).val = i.val := congrArg Fin.val (congrFun e (1 : Fin 3))
      have e2 : o + (j' 2).val = j.val := congrArg Fin.val (congrFun e (2 : Fin 3))
      funext a
      match a with
      | ⟨0, _⟩ => exact Fin.ext e0
      | ⟨1, _⟩ => exact Fin.ext (by show (j' 1).val = i.val - o; omega)
      | ⟨2, _⟩ => exact Fin.ext (by show (j' 2).val = j.val - o; omega)
  · rw [dif_neg h]
    refine scatter_read_miss _ x idx upd (ix3 b i j) ?_
    intro j' hj'
    rw [blk_resultIdx idx c hidx o ho hc] at hj'
    have e := Option.some.inj hj'
    have e1 : o + (j' 1).val = i.val := congrArg Fin.val (congrFun e (1 : Fin 3))
    have e2 : o + (j' 2).val = j.val := congrArg Fin.val (congrFun e (2 : Fin 3))
    have h1 : (j' 1).val < 2 := (j' 1).isLt
    have h2 : (j' 2).val < 2 := (j' 2).isLt
    omega

/-- The second pair's matrix written at the top left of the identity. -/
theorem v56_apply (x0 : (⟨S4194304x9, .f32⟩ : BufTy).Contents (Elt Ideal)) (b : Fin 4194304) (i j : Fin 3) :
    val_main_v56 (F := Ideal) x0 (ix3 b i j)
      = Cert.RowSpec.topLeft (fun r => val_main_v29 (F := Ideal) x0 (ix2 b r)) (fun r => val_main_v40 (F := Ideal) x0 (ix2 b r)) i j := by
  unfold val_main_v56
  rw [blk_read _ _ _ 0#32 v55_apply 0 (by omega) (by decide) b i j]
  unfold Cert.RowSpec.topLeft
  by_cases h : i.val < 2 ∧ j.val < 2
  · rw [dif_pos h, dif_pos ⟨⟨Nat.zero_le _, by omega⟩, ⟨Nat.zero_le _, by omega⟩⟩]
    exact v43_apply x0 b ⟨i.val, h.1⟩ ⟨j.val, h.2⟩
  · rw [dif_neg h, dif_neg (by omega)]
    exact v52_apply b i j

/-- The first pair's matrix written at the bottom right of the identity. -/
theorem v60_apply (x0 : (⟨S4194304x9, .f32⟩ : BufTy).Contents (Elt Ideal)) (b : Fin 4194304) (i j : Fin 3) :
    val_main_v60 (F := Ideal) x0 (ix3 b i j)
      = Cert.RowSpec.bottomRight (fun r => val_main_v7 (F := Ideal) x0 (ix2 b r)) (fun r => val_main_v18 (F := Ideal) x0 (ix2 b r)) i j := by
  unfold val_main_v60
  rw [blk_read _ _ _ 1#32 v59_apply 1 (by omega) (by decide) b i j]
  unfold Cert.RowSpec.bottomRight
  have hi : i.val < 3 := i.isLt
  have hj : j.val < 3 := j.isLt
  by_cases h : 1 ≤ i.val ∧ 1 ≤ j.val
  · rw [dif_pos h, dif_pos ⟨⟨h.1, by omega⟩, ⟨h.2, by omega⟩⟩, v21_apply]
    by_cases hj1 : j.val = 1
    · rw [if_pos hj1, if_pos (by show j.val - 1 = 0; omega)]
    · rw [if_neg hj1, if_neg (by show ¬ (j.val - 1 = 0); omega)]
  · rw [dif_neg h, dif_neg (by omega)]
    exact v52_apply b i j

/-- The length written at row `2` of a zero column. -/
theorem v66_apply (x0 : (⟨S4194304x9, .f32⟩ : BufTy).Contents (Elt Ideal)) (b : Fin 4194304) (c : Fin 3) :
    val_main_v66 (F := Ideal) x0 (ix3 b c (0 : Fin 1))
      = Cert.RowSpec.lastAxis (val_main_v45 (F := Ideal) x0 (ix1 b)) c := by
  unfold val_main_v66 Cert.RowSpec.lastAxis
  by_cases h : c.val = 2
  · rw [if_pos h]
    refine scatter_read_hit _ _ _ _ (ix3 b c (0 : Fin 1)) (ix1 b) ?_ ?_
    · rw [col_resultIdx]
      refine congrArg some (funext fun a => ?_)
      match a with
      | ⟨0, _⟩ => rfl
      | ⟨1, _⟩ => exact Fin.ext (by show 2 = c.val; omega)
      | ⟨2, _⟩ => rfl
    · intro j' hj'
      rw [col_resultIdx] at hj'
      have e0 : (j' 0).val = b.val := congrArg Fin.val (congrFun (Option.some.inj hj') (0 : Fin 3))
      funext a
      match a with
      | ⟨0, _⟩ => exact Fin.ext e0
  · rw [if_neg h]
    rw [scatter_read_miss _ _ _ _ (ix3 b c (0 : Fin 1)) (fun j' hj' => by
      rw [col_resultIdx] at hj'
      have e1 : 2 = c.val := congrArg Fin.val (congrFun (Option.some.inj hj') (1 : Fin 3))
      omega)]
    rw [val_main_v62_apply, val_main_cst_9_apply, Ideal.ofBits_def, Ideal.ofBits_zero_f32]

/-! ## The tail of the reference at an index -/

theorem v68_apply (x0 : (⟨S4194304x9, .f32⟩ : BufTy).Contents (Elt Ideal)) (b : Fin 4194304) (k : Fin 3) :
    val_main_v68 (F := Ideal) x0 (ix3 b (0 : Fin 1) k)
      = Cert.RowSpec.compose (fun j => val_main_v7 (F := Ideal) x0 (ix2 b j)) (fun j => val_main_v18 (F := Ideal) x0 (ix2 b j))
          (fun j => val_main_v29 (F := Ideal) x0 (ix2 b j)) (fun j => val_main_v40 (F := Ideal) x0 (ix2 b j))
          (val_main_v45 (F := Ideal) x0 (ix1 b)) k := by
  have hb : b.val < 4194304 := b.isLt
  have hk : k.val < 3 := k.isLt
  have e : idx_main_v68 (ix3 b (0 : Fin 1) k) = ix3 b k (0 : Fin 1) := funext fun a => match a with
    | ⟨0, _⟩ => Fin.ext (by show ((b.val * 1 + 0) * 3 + k.val) / 3 = b.val; omega)
    | ⟨1, _⟩ => Fin.ext (by show ((b.val * 1 + 0) * 3 + k.val) / 1 % 3 = k.val; omega)
    | ⟨2, _⟩ => rfl
  rw [val_main_v68_apply, e, val_main_v67_apply]
  unfold Cert.RowSpec.compose
  refine Finset.sum_congr rfl fun c _ => ?_
  have el : lidx_main_v67 (ix3 b k (0 : Fin 1)) c = ix3 b k c :=
    funext fun a => match a with | ⟨0, _⟩ => rfl | ⟨1, _⟩ => rfl | ⟨2, _⟩ => rfl
  have er : ridx_main_v67 (ix3 b k (0 : Fin 1)) c = ix3 b c (0 : Fin 1) :=
    funext fun a => match a with | ⟨0, _⟩ => rfl | ⟨1, _⟩ => rfl | ⟨2, _⟩ => rfl
  rw [el, er, v66_apply, val_main_v61_apply]
  refine congrArg (fun t => t * Cert.RowSpec.lastAxis (val_main_v45 (F := Ideal) x0 (ix1 b)) c) ?_
  refine Finset.sum_congr rfl fun j _ => ?_
  have el' : lidx_main_v61 (ix3 b k c) j = ix3 b k j :=
    funext fun a => match a with | ⟨0, _⟩ => rfl | ⟨1, _⟩ => rfl | ⟨2, _⟩ => rfl
  have er' : ridx_main_v61 (ix3 b k c) j = ix3 b j c :=
    funext fun a => match a with | ⟨0, _⟩ => rfl | ⟨1, _⟩ => rfl | ⟨2, _⟩ => rfl
  rw [el', er', v56_apply, v60_apply]

end Cert.RefTail

end
-- ==== Proof.RefHead.lean ====
import proofs.«157801_j78185584656835_1_alg».proof.Proof.Gen.ReferenceIdeal.Read
import proofs.«157801_j78185584656835_1_alg».proof.Proof.RowSpec

/-
  The head of the reference program read at an index: its two Gram–Schmidt passes (columns 0..3 and 4..7 of a row)
  and the length in column 8, each identified with the row-level definitions of `Cert.RowSpec`.

  Every stage is an elementwise operation, a broadcast along the size-one axis, or a sum over the two entries of a
  pair, so a stage's value at row `b` is the row-level quantity of the row `fun q => x0 (b, q)`.  The sums of the
  program start from the f32 zero, which is the extended real `0`; the clip `ε` is the same f32 word on both sides
  and is never evaluated.
-/

noncomputable section

namespace Cert.RefHead

open Cert.ReferenceIdeal Cert.ReferenceIdeal.Gen Cert.ReferenceIdeal.Read Idealize.ShloMosaic Idealize.ShloMosaic.ValueIdx Cert.RowSpec

/-- Row `b` of the argument array, as a function of the column. -/
abbrev row (x0 : (⟨S4194304x9, .f32⟩ : BufTy).Contents (Elt Ideal)) (b : Fin 4194304) : Fin 9 → EReal := fun q => x0 (ix2 b q)

variable (x0 : (⟨S4194304x9, .f32⟩ : BufTy).Contents (Elt Ideal)) (b : Fin 4194304)

/-! ## The first pair: columns 0..3 -/

/-- The raw `x` of the first pair is columns 0, 1 of the row. -/
theorem v1_at (j : Fin 2) : val_main_v1 (F := Ideal) x0 (ix2 b j) = pair (row x0 b) 0 (by omega) j := by
  rw [val_main_v1_apply, val_main_v0_apply]
  exact congrArg x0 (funext fun a => Fin.ext (by match a with | ⟨0, _⟩ => rfl | ⟨1, _⟩ => exact (Nat.zero_add _).symm))

/-- The raw `y` of the first pair is columns 2, 3 of the row. -/
theorem v2_at (j : Fin 2) : val_main_v2 (F := Ideal) x0 (ix2 b j) = pair (row x0 b) 2 (by omega) j := by
  rw [val_main_v2_apply, val_main_v0_apply]
  exact congrArg x0 (funext fun a => Fin.ext (by match a with | ⟨0, _⟩ => rfl | ⟨1, _⟩ => rfl))

/-- The clipped length of the raw `x`: the square root of the sum of the two squares, clipped below at `ε`.
    The sum starts from the f32 zero, which is `0`. -/
theorem v5_at : val_main_v5 (F := Ideal) x0 (ix2 b (0 : Fin 1)) = clippedNorm (pair (row x0 b) 0 (by omega)) := by
  rw [val_main_v5_apply, val_main_v3_apply, val_main_call0_v2_apply, val_main_call0_v1_apply, val_main_v4_apply,
    val_main_cst_apply, val_main_call0_cst_apply, Ideal.maximumf_def, Ideal.hostUnary_sqrt_def, Ideal.ofBits_def,
    Ideal.ofBits_def, Ideal.ofBits_zero_f32, zero_add]
  unfold clippedNorm eps
  refine congrArg (fun s => max (Ideal.sqrt s) _) (Finset.sum_congr rfl fun k _ => ?_)
  have e : idx_main_call0_v1 (idx_main_call0_v2 (ix2 b (0 : Fin 1))) k = ix2 b k :=
    funext fun a => Fin.ext (by match a with | ⟨0, _⟩ => rfl | ⟨1, _⟩ => rfl)
  rw [e, val_main_call0_v0_apply, v1_at, Ideal.mulf_def]

/-- The normalised `x`: each entry divided by the clipped length (the length is broadcast along the pair). -/
theorem v7_at (j : Fin 2) : val_main_v7 (F := Ideal) x0 (ix2 b j) = normalize (pair (row x0 b) 0 (by omega)) j := by
  rw [val_main_v7_apply, val_main_v6_apply]
  have e : idx_main_v6 (ix2 b j) = ix2 b (0 : Fin 1) :=
    funext fun a => Fin.ext (by match a with | ⟨0, _⟩ => rfl | ⟨1, _⟩ => rfl)
  rw [e, v5_at, v1_at, Ideal.hostDivf_def]
  rfl

/-- The inner product of the normalised `x` with the raw `y`; the sum starts from the f32 zero, which is `0`. -/
theorem v10_at : val_main_v10 (F := Ideal) x0 (ix2 b (0 : Fin 1)) =
    inner2 (normalize (pair (row x0 b) 0 (by omega))) (pair (row x0 b) 2 (by omega)) := by
  rw [val_main_v10_apply, val_main_v9_apply, val_main_cst_0_apply, Ideal.ofBits_def, Ideal.ofBits_zero_f32, zero_add]
  unfold inner2
  refine Finset.sum_congr rfl fun k _ => ?_
  have e : idx_main_v9 (idx_main_v10 (ix2 b (0 : Fin 1))) k = ix2 b k :=
    funext fun a => Fin.ext (by match a with | ⟨0, _⟩ => rfl | ⟨1, _⟩ => rfl)
  rw [e, val_main_v8_apply, v7_at, v2_at, Ideal.mulf_def]

/-- The raw `y` less its component along the normalised `x` (the inner product is broadcast along the pair). -/
theorem v13_at (j : Fin 2) : val_main_v13 (F := Ideal) x0 (ix2 b j) =
    reject (pair (row x0 b) 0 (by omega)) (pair (row x0 b) 2 (by omega)) j := by
  rw [val_main_v13_apply, val_main_v12_apply, val_main_v11_apply]
  have e : idx_main_v11 (ix2 b j) = ix2 b (0 : Fin 1) :=
    funext fun a => Fin.ext (by match a with | ⟨0, _⟩ => rfl | ⟨1, _⟩ => rfl)
  rw [e, v10_at, v7_at, v2_at, Ideal.subf_def, Ideal.mulf_def]
  rfl

/-- The clipped length of the rejected `y`. -/
theorem v16_at : val_main_v16 (F := Ideal) x0 (ix2 b (0 : Fin 1)) =
    clippedNorm (reject (pair (row x0 b) 0 (by omega)) (pair (row x0 b) 2 (by omega))) := by
  rw [val_main_v16_apply, val_main_v14_apply, val_main_call1_v2_apply, val_main_call1_v1_apply, val_main_v15_apply,
    val_main_cst_1_apply, val_main_call1_cst_apply, Ideal.maximumf_def, Ideal.hostUnary_sqrt_def, Ideal.ofBits_def,
    Ideal.ofBits_def, Ideal.ofBits_zero_f32, zero_add]
  unfold clippedNorm eps
  refine congrArg (fun s => max (Ideal.sqrt s) _) (Finset.sum_congr rfl fun k _ => ?_)
  have e : idx_main_call1_v1 (idx_main_call1_v2 (ix2 b (0 : Fin 1))) k = ix2 b k :=
    funext fun a => Fin.ext (by match a with | ⟨0, _⟩ => rfl | ⟨1, _⟩ => rfl)
  rw [e, val_main_call1_v0_apply, v13_at, Ideal.mulf_def]

/-- The second vector of the Gram–Schmidt pair: the rejected `y` divided by its clipped length. -/
theorem v18_at (j : Fin 2) : val_main_v18 (F := Ideal) x0 (ix2 b j) =
    gsSecond (pair (row x0 b) 0 (by omega)) (pair (row x0 b) 2 (by omega)) j := by
  rw [val_main_v18_apply, val_main_v17_apply]
  have e : idx_main_v17 (ix2 b j) = ix2 b (0 : Fin 1) :=
    funext fun a => Fin.ext (by match a with | ⟨0, _⟩ => rfl | ⟨1, _⟩ => rfl)
  rw [e, v16_at, v13_at, Ideal.hostDivf_def]
  rfl

/-! ## The second pair: columns 4..7 -/

/-- The raw `x` of the second pair is columns 4, 5 of the row. -/
theorem v23_at (j : Fin 2) : val_main_v23 (F := Ideal) x0 (ix2 b j) = pair (row x0 b) 4 (by omega) j := by
  rw [val_main_v23_apply, val_main_v22_apply]
  exact congrArg x0 (funext fun a => Fin.ext (by match a with | ⟨0, _⟩ => rfl | ⟨1, _⟩ => rfl))

/-- The raw `y` of the second pair is columns 6, 7 of the row. -/
theorem v24_at (j : Fin 2) : val_main_v24 (F := Ideal) x0 (ix2 b j) = pair (row x0 b) 6 (by omega) j := by
  rw [val_main_v24_apply, val_main_v22_apply]
  exact congrArg x0 (funext fun a => Fin.ext (by match a with | ⟨0, _⟩ => rfl | ⟨1, _⟩ => exact (Nat.add_assoc 4 2 _).symm))

/-- The clipped length of the raw `x`: the square root of the sum of the two squares, clipped below at `ε`.
    The sum starts from the f32 zero, which is `0`. -/
theorem v27_at : val_main_v27 (F := Ideal) x0 (ix2 b (0 : Fin 1)) = clippedNorm (pair (row x0 b) 4 (by omega)) := by
  rw [val_main_v27_apply, val_main_v25_apply, val_main_call2_v2_apply, val_main_call2_v1_apply, val_main_v26_apply,
    val_main_cst_2_apply, val_main_call2_cst_apply, Ideal.maximumf_def, Ideal.hostUnary_sqrt_def, Ideal.ofBits_def,
    Ideal.ofBits_def, Ideal.ofBits_zero_f32, zero_add]
  unfold clippedNorm eps
  refine congrArg (fun s => max (Ideal.sqrt s) _) (Finset.sum_congr rfl fun k _ => ?_)
  have e : idx_main_call2_v1 (idx_main_call2_v2 (ix2 b (0 : Fin 1))) k = ix2 b k :=
    funext fun a => Fin.ext (by match a with | ⟨0, _⟩ => rfl | ⟨1, _⟩ => rfl)
  rw [e, val_main_call2_v0_apply, v23_at, Ideal.mulf_def]

/-- The normalised `x`: each entry divided by the clipped length (the length is broadcast along the pair). -/
theorem v29_at (j : Fin 2) : val_main_v29 (F := Ideal) x0 (ix2 b j) = normalize (pair (row x0 b) 4 (by omega)) j := by
  rw [val_main_v29_apply, val_main_v28_apply]
  have e : idx_main_v28 (ix2 b j) = ix2 b (0 : Fin 1) :=
    funext fun a => Fin.ext (by match a with | ⟨0, _⟩ => rfl | ⟨1, _⟩ => rfl)
  rw [e, v27_at, v23_at, Ideal.hostDivf_def]
  rfl

/-- The inner product of the normalised `x` with the raw `y`; the sum starts from the f32 zero, which is `0`. -/
theorem v32_at : val_main_v32 (F := Ideal) x0 (ix2 b (0 : Fin 1)) =
    inner2 (normalize (pair (row x0 b) 4 (by omega))) (pair (row x0 b) 6 (by omega)) := by
  rw [val_main_v32_apply, val_main_v31_apply, val_main_cst_3_apply, Ideal.ofBits_def, Ideal.ofBits_zero_f32, zero_add]
  unfold inner2
  refine Finset.sum_congr rfl fun k _ => ?_
  have e : idx_main_v31 (idx_main_v32 (ix2 b (0 : Fin 1))) k = ix2 b k :=
    funext fun a => Fin.ext (by match a with | ⟨0, _⟩ => rfl | ⟨1, _⟩ => rfl)
  rw [e, val_main_v30_apply, v29_at, v24_at, Ideal.mulf_def]

/-- The raw `y` less its component along the normalised `x` (the inner product is broadcast along the pair). -/
theorem v35_at (j : Fin 2) : val_main_v35 (F := Ideal) x0 (ix2 b j) =
    reject (pair (row x0 b) 4 (by omega)) (pair (row x0 b) 6 (by omega)) j := by
  rw [val_main_v35_apply, val_main_v34_apply, val_main_v33_apply]
  have e : idx_main_v33 (ix2 b j) = ix2 b (0 : Fin 1) :=
    funext fun a => Fin.ext (by match a with | ⟨0, _⟩ => rfl | ⟨1, _⟩ => rfl)
  rw [e, v32_at, v29_at, v24_at, Ideal.subf_def, Ideal.mulf_def]
  rfl

/-- The clipped length of the rejected `y`. -/
theorem v38_at : val_main_v38 (F := Ideal) x0 (ix2 b (0 : Fin 1)) =
    clippedNorm (reject (pair (row x0 b) 4 (by omega)) (pair (row x0 b) 6 (by omega))) := by
  rw [val_main_v38_apply, val_main_v36_apply, val_main_call3_v2_apply, val_main_call3_v1_apply, val_main_v37_apply,
    val_main_cst_4_apply, val_main_call3_cst_apply, Ideal.maximumf_def, Ideal.hostUnary_sqrt_def, Ideal.ofBits_def,
    Ideal.ofBits_def, Ideal.ofBits_zero_f32, zero_add]
  unfold clippedNorm eps
  refine congrArg (fun s => max (Ideal.sqrt s) _) (Finset.sum_congr rfl fun k _ => ?_)
  have e : idx_main_call3_v1 (idx_main_call3_v2 (ix2 b (0 : Fin 1))) k = ix2 b k :=
    funext fun a => Fin.ext (by match a with | ⟨0, _⟩ => rfl | ⟨1, _⟩ => rfl)
  rw [e, val_main_call3_v0_apply, v35_at, Ideal.mulf_def]

/-- The second vector of the Gram–Schmidt pair: the rejected `y` divided by its clipped length. -/
theorem v40_at (j : Fin 2) : val_main_v40 (F := Ideal) x0 (ix2 b j) =
    gsSecond (pair (row x0 b) 4 (by omega)) (pair (row x0 b) 6 (by omega)) j := by
  rw [val_main_v40_apply, val_main_v39_apply]
  have e : idx_main_v39 (ix2 b j) = ix2 b (0 : Fin 1) :=
    funext fun a => Fin.ext (by match a with | ⟨0, _⟩ => rfl | ⟨1, _⟩ => rfl)
  rw [e, v38_at, v35_at, Ideal.hostDivf_def]
  rfl

/-! ## The statements -/

variable (j : Fin 2)

/-- First pair, the normalised `x`. -/
theorem v7_apply : val_main_v7 (F := Ideal) x0 (ix2 b j) = Cert.RowSpec.x1 (row x0 b) j := v7_at x0 b j

/-- First pair, the Gram–Schmidt `y`. -/
theorem v18_apply : val_main_v18 (F := Ideal) x0 (ix2 b j) = Cert.RowSpec.y1 (row x0 b) j := v18_at x0 b j

/-- Second pair (columns 4..7), the normalised `x`. -/
theorem v29_apply : val_main_v29 (F := Ideal) x0 (ix2 b j) = Cert.RowSpec.x2 (row x0 b) j := v29_at x0 b j

/-- Second pair, the Gram–Schmidt `y`. -/
theorem v40_apply : val_main_v40 (F := Ideal) x0 (ix2 b j) = Cert.RowSpec.y2 (row x0 b) j := v40_at x0 b j

/-- The translation length is column 8 of the row (a slice of width one, then the size-one axis dropped). -/
theorem v45_apply : val_main_v45 (F := Ideal) x0 (ix1 b) = Cert.RowSpec.len (row x0 b) := by
  rw [val_main_v45_apply, val_main_v44_apply]
  exact congrArg x0 (funext fun a => Fin.ext (by match a with | ⟨0, _⟩ => exact Nat.div_one _ | ⟨1, _⟩ => rfl))

end Cert.RefHead

end
-- ==== Proof.RefValue.lean ====
/-
  The reference program's result as a function of the argument array: entry `(b, 0, k)` is the composed form
  `((Rz · Rx) · (0, 0, d)ᵀ)ₖ` of row `b`, which collapses to the three-product form.
-/
import proofs.«157801_j78185584656835_1_alg».proof.Proof.Gen.ReferenceIdeal.Read
import proofs.«157801_j78185584656835_1_alg».proof.Proof.RowSpec
import proofs.«157801_j78185584656835_1_alg».proof.Proof.RefTail
import proofs.«157801_j78185584656835_1_alg».proof.Proof.RefHead
import Idealize.ShloMosaic.Lib.ValueIdx

noncomputable section

open Idealize.ShloMosaic Idealize.ShloMosaic.TcCoe Idealize.SL.Sem Idealize.ShloMosaic.ValueIdx

namespace Cert.RefValue

open Cert.ReferenceIdeal Cert.ReferenceIdeal.Read

/-- Every entry of the reference's result is the collapsed form of its row. -/
theorem reference_rows (x0 : (⟨S4194304x9, .f32⟩ : BufTy).Contents (Elt Ideal)) :
    val_main_v68 (F := Ideal) x0 = fun i => Cert.RowSpec.collapsed (fun j => x0 (ix2 (i 0) j)) (i 2) := by
  funext i
  obtain ⟨b, k, rfl⟩ : ∃ (b : Fin 4194304) (k : Fin 3), i = ix3 b (0 : Fin 1) k :=
    ⟨i 0, i 2, funext fun a => by
      match a with
      | ⟨0, _⟩ => rfl
      | ⟨1, _⟩ => exact Fin.ext (by have h : (i 1).val < 1 := (i 1).isLt; show (i 1).val = 0; omega)
      | ⟨2, _⟩ => rfl⟩
  show val_main_v68 (F := Ideal) x0 (ix3 b 0 k) = Cert.RowSpec.collapsed (fun j => x0 (ix2 b j)) k
  rw [Cert.RefTail.v68_apply]
  simp only [Cert.RefHead.v7_apply, Cert.RefHead.v18_apply, Cert.RefHead.v29_apply, Cert.RefHead.v40_apply, Cert.RefHead.v45_apply]
  exact Cert.RowSpec.composed_eq_collapsed (fun j => x0 (ix2 b j)) k

end Cert.RefValue

end
-- ==== Proof.lean ====
/-
  The translation-from-angles block: a kernel that computes, per row of nine numbers, two Gram–Schmidt pairs and the
  three products `(d·y₂₀·y₁₀, d·y₂₁·y₁₀, d·y₁₁)`, against a reference that embeds the two pairs in 3×3 rotations
  `Rz`, `Rx`, multiplies them and applies the product to `(0, 0, d)ᵀ`.

  Over the extended reals the two agree entry by entry: both compute the pairs by the same operations on the same
  entries of the row (RowSpec's `x1, y1, x2, y2`), and the matrix form collapses to the three products by the laws of
  `0` and `1` and commutativity of `·` (RowSpec's `compose_eq_collapse`), none of which needs the inputs finite.
  KernelValue reads the kernel's run (blocks of 4096 rows tile the array; the final reshape keeps positions), RefValue the
  reference's (its scatters into the identity read at an index, its two batched matrix products as sums over three terms).
  The three frames: the two kernels' are the class-A frame run of the one region; the reference's is its run with the
  result dropped.  No operation of the kernel was rewritten by the idealization, so `preserves` has nothing to state.
-/
import proofs.«157801_j78185584656835_1_alg».proof.Defs
import proofs.«157801_j78185584656835_1_alg».proof.Proof.Gen.Kernel
import proofs.«157801_j78185584656835_1_alg».proof.Proof.Gen.Kernel.Skeleton
import proofs.«157801_j78185584656835_1_alg».proof.Proof.Gen.Kernel.Launch
import proofs.«157801_j78185584656835_1_alg».proof.Proof.Gen.Kernel.Points
import proofs.«157801_j78185584656835_1_alg».proof.Proof.Gen.Kernel.Frame
import proofs.«157801_j78185584656835_1_alg».proof.Proof.Gen.KernelIdeal
import proofs.«157801_j78185584656835_1_alg».proof.Proof.Gen.KernelIdeal.Skeleton
import proofs.«157801_j78185584656835_1_alg».proof.Proof.Gen.KernelIdeal.Launch
import proofs.«157801_j78185584656835_1_alg».proof.Proof.Gen.KernelIdeal.Points
import proofs.«157801_j78185584656835_1_alg».proof.Proof.Gen.KernelIdeal.Frame
import proofs.«157801_j78185584656835_1_alg».proof.Proof.Gen.ReferenceIdeal
import proofs.«157801_j78185584656835_1_alg».proof.Proof.Gen.Pre_finite_inputs
import proofs.«157801_j78185584656835_1_alg».proof.Proof.Gen.ReferenceIdeal.Run
import proofs.«157801_j78185584656835_1_alg».proof.Proof.Gen.ReferenceIdeal.Read
import proofs.«157801_j78185584656835_1_alg».proof.Proof.KernelValue
import proofs.«157801_j78185584656835_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the collapsed form of each row of the (shared) argument array in their result. -/
theorem algebraic : Cert.algebraic_KernelIdeal_ReferenceIdeal := by
  intro m ρ m' ρ' _ hagree
  refine ⟨fun c => Cert.KernelValue.result (m ((c.tc : Thread Cert.KernelIdeal.nD Cert.KernelIdeal.τ).loc Cert.KernelIdeal.main_arg0)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, hagree c]
  exact Cert.RefValue.reference_rows _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
